-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x3 : Shape := ⟨2, ![1024, 3]⟩
abbrev S1024x32 : Shape := ⟨2, ![1024, 32]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024x32 : S_.BroadcastsInDim S1024x32 (![] : Fin 0 → Fin S1024x32.rank)
  reducesTo_S1024x32_S_d0_1 : S1024x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64 .f32) (main_arg5 : FVec F S32x64 .f32) (main_arg6 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S1024x1024 .f32) (main_arg1 : FVec F S1024x3 .f32) (main_arg2 : FVec F S1024x32 .f32) (main_arg3 : FVec F S64x64 .f32) (main_arg4 : FVec F S64 .f32) (main_arg5 : FVec F S32x64 .f32) (main_arg6 : FVec F S32 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024x32 .f32 := Host.absf main_arg2
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_c_3 : IVec S_ 1 := constantI S_ 1 1#1
  let main_v12 : IVec S_ 1 := (fun x v => Host.reduce IntOp.andi x v reducesTo_S1024x32_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S1024x1024 : Shape := ⟨2, ![1024, 1024]⟩
abbrev S1024x3 : Shape := ⟨2, ![1024, 3]⟩
abbrev S1024x32 : Shape := ⟨2, ![1024, 32]⟩
abbrev S64x64 : Shape := ⟨2, ![64, 64]⟩
abbrev S64 : Shape := ⟨1, ![64]⟩
abbrev S32x64 : Shape := ⟨2, ![32, 64]⟩
abbrev S32 : Shape := ⟨1, ![32]⟩
abbrev S64x32 : Shape := ⟨2, ![64, 32]⟩
abbrev S1024x64 : Shape := ⟨2, ![1024, 64]⟩
abbrev S1x64 : Shape := ⟨2, ![1, 64]⟩
abbrev S1x32 : Shape := ⟨2, ![1, 32]⟩
abbrev S1024x1024x32 : Shape := ⟨3, ![1024, 1024, 32]⟩
abbrev S64x3 : Shape := ⟨2, ![64, 3]⟩
abbrev S128x3 : Shape := ⟨2, ![128, 3]⟩
abbrev S64x128 : Shape := ⟨2, ![64, 128]⟩
abbrev S128x64 : Shape := ⟨2, ![128, 64]⟩
abbrev S64x128x32 : Shape := ⟨3, ![64, 128, 32]⟩
abbrev S3x128 : Shape := ⟨2, ![3, 128]⟩
abbrev S64x1 : Shape := ⟨2, ![64, 1]⟩
abbrev S128 : Shape := ⟨1, ![128]⟩
abbrev S1x128 : Shape := ⟨2, ![1, 128]⟩
abbrev S64x128x1 : Shape := ⟨3, ![64, 128, 1]⟩
abbrev S64x1x64 : Shape := ⟨3, ![64, 1, 64]⟩
abbrev S1x128x64 : Shape := ⟨3, ![1, 128, 64]⟩
abbrev S64x128x64 : Shape := ⟨3, ![64, 128, 64]⟩
abbrev S1x1x64 : Shape := ⟨3, ![1, 1, 64]⟩
abbrev S8192x64 : Shape := ⟨2, ![8192, 64]⟩
abbrev S8192x32 : Shape := ⟨2, ![8192, 32]⟩
abbrev S1x1x32 : Shape := ⟨3, ![1, 1, 32]⟩

abbrev nBuf : Space → Nat
  | .hbm => 17
  | .vmem => 15
  | .smem => 0
  | _ => 0

abbrev bufTy : (tb : Table) → Fin (tcTables nBuf tb) → BufTy
  | .hbm, ⟨0, _⟩ => ⟨S1024x1024, .f32⟩
  | .hbm, ⟨1, _⟩ => ⟨S1024x3, .f32⟩
  | .hbm, ⟨2, _⟩ => ⟨S1024x32, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S64x32, .f32⟩
  | .hbm, ⟨8, _⟩ => ⟨S32x64, .f32⟩
  | .hbm, ⟨9, _⟩ => ⟨S1024x64, .f32⟩
  | .hbm, ⟨10, _⟩ => ⟨S64x32, .f32⟩
  | .hbm, ⟨11, _⟩ => ⟨S32x64, .f32⟩
  | .hbm, ⟨12, _⟩ => ⟨S1024x64, .f32⟩
  | .hbm, ⟨13, _⟩ => ⟨S64x32, .f32⟩
  | .hbm, ⟨14, _⟩ => ⟨S1x64, .f32⟩
  | .hbm, ⟨15, _⟩ => ⟨S1x32, .f32⟩
  | .hbm, ⟨16, _⟩ => ⟨S1024x1024x32, .f32⟩
  | .local _ .vmem, ⟨0, _⟩ => ⟨S64x3, .f32⟩
  | .local _ .vmem, ⟨1, _⟩ => ⟨S64x3, .f32⟩
  | .local _ .vmem, ⟨2, _⟩ => ⟨S128x3, .f32⟩
  | .local _ .vmem, ⟨3, _⟩ => ⟨S128x3, .f32⟩
  | .local _ .vmem, ⟨4, _⟩ => ⟨S64x128, .f32⟩
  | .local _ .vmem, ⟨5, _⟩ => ⟨S64x128, .f32⟩
  | .local _ .vmem, ⟨6, _⟩ => ⟨S64x64, .f32⟩
  | .local _ .vmem, ⟨7, _⟩ => ⟨S64x64, .f32⟩
  | .local _ .vmem, ⟨8, _⟩ => ⟨S128x64, .f32⟩
  | .local _ .vmem, ⟨9, _⟩ => ⟨S128x64, .f32⟩
  | .local _ .vmem, ⟨10, _⟩ => ⟨S64x32, .f32⟩
  | .local _ .vmem, ⟨11, _⟩ => ⟨S1x64, .f32⟩
  | .local _ .vmem, ⟨12, _⟩ => ⟨S1x32, .f32⟩
  | .local _ .vmem, ⟨13, _⟩ => ⟨S64x128x32, .f32⟩
  | .local _ .vmem, ⟨14, _⟩ => ⟨S64x128x32, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x128x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S64x64_S64x32_0_0 : S64x64.Slices ![0, 0] S64x32
  transposes_S64x32_S32x64_1_0 : S64x32.Transposes [1, 0] S32x64
  slices_S64x64_S64x32_0_32 : S64x64.Slices ![0, 32] S64x32
  transposes_S32x64_S64x32_1_0 : S32x64.Transposes [1, 0] S64x32
  shapeCasts_S64_S1x64 : S64.ShapeCasts S1x64
  shapeCasts_S32_S1x32 : S32.ShapeCasts S1x32
  inb_S64x3_S64x3_0_0 : ∀ a, (![0, 0] : Fin 2 → Nat) a + S64x3.size a ≤ S64x3.size a
  h_S64x3 : 0 < S64x3.numel
  inb_S128x3_S128x3_0_0 : ∀ a, (![0, 0] : Fin 2 → Nat) a + S128x3.size a ≤ S128x3.size a
  h_S128x3 : 0 < S128x3.numel
  transposes_S128x3_p1_0_S3x128 : S128x3.Transposes [1, 0] S3x128
  reduces_S64x3_S64 : S64x3.Reduces [1] S64
  shapeCasts_S64_S64x1 : S64.ShapeCasts S64x1
  reduces_S3x128_S128 : S3x128.Reduces [0] S128
  shapeCasts_S128_S1x128 : S128.ShapeCasts S1x128
  slices_S64x3_o0_0_S64x1 : S64x3.Slices ![0, 0] S64x1
  slices_S3x128_o0_0_S1x128 : S3x128.Slices ![0, 0] S1x128
  broadcasts_S64x1_S64x128 : S64x1.Broadcasts S64x128
  broadcasts_S1x128_S64x128 : S1x128.Broadcasts S64x128
  slices_S64x3_o0_1_S64x1 : S64x3.Slices ![0, 1] S64x1
  slices_S3x128_o1_0_S1x128 : S3x128.Slices ![1, 0] S1x128
  slices_S64x3_o0_2_S64x1 : S64x3.Slices ![0, 2] S64x1
  slices_S3x128_o2_0_S1x128 : S3x128.Slices ![2, 0] S1x128
  iota_S64x128_d0_w32 : S64x128.Iotas .tc 32 [0]
  iota_S64x128_d1_w32 : S64x128.Iotas .tc 32 [1]
  inb_S64x128_S64x128_0_0 : ∀ a, (![0, 0] : Fin 2 → Nat) a + S64x128.size a ≤ S64x128.size a
  h_S64x128 : 0 < S64x128.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S64x128_S64x128x1 : S64x128.ShapeCasts S64x128x1
  shapeCasts_S64x64_S64x1x64 : S64x64.ShapeCasts S64x1x64
  shapeCasts_S128x64_S1x128x64 : S128x64.ShapeCasts S1x128x64
  broadcasts_S64x1x64_S64x128x64 : S64x1x64.Broadcasts S64x128x64
  broadcasts_S1x128x64_S64x128x64 : S1x128x64.Broadcasts S64x128x64
  broadcasts_S64x128x1_S64x128x64 : S64x128x1.Broadcasts S64x128x64
  inb_S1x64_S1x64_0_0 : ∀ a, (![0, 0] : Fin 2 → Nat) a + S1x64.size a ≤ S1x64.size a
  h_S1x64 : 0 < S1x64.numel
  shapeCasts_S1x64_S64 : S1x64.ShapeCasts S64
  shapeCasts_S64_S1x1x64 : S64.ShapeCasts S1x1x64
  broadcasts_S1x1x64_S64x128x64 : S1x1x64.Broadcasts S64x128x64
  bitsLt_bf16_f32 : FTy.bits .bf16 < FTy.bits .f32
  shapeCasts_S64x128x64_S8192x64 : S64x128x64.ShapeCasts S8192x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  shapeCasts_S8192x32_S64x128x32 : S8192x32.ShapeCasts S64x128x32
  inb_S1x32_S1x32_0_0 : ∀ a, (![0, 0] : Fin 2 → Nat) a + S1x32.size a ≤ S1x32.size a
  h_S1x32 : 0 < S1x32.numel
  shapeCasts_S1x32_S32 : S1x32.ShapeCasts S32
  shapeCasts_S32_S1x1x32 : S32.ShapeCasts S1x1x32
  broadcasts_S1x1x32_S64x128x32 : S1x1x32.Broadcasts S64x128x32
  inb_S64x128x32_S64x128x32_0_0_0 : ∀ a, (![0, 0, 0] : Fin 3 → Nat) a + S64x128x32.size a ≤ S64x128x32.size a
  h_S64x128x32 : 0 < S64x128x32.numel
  dot_S1024x32_S32x64_S1024x64_1_0_0_1_n_n_wf : DotDims.WF S1024x32 S32x64 S1024x64 [1] [0] [0] [1] [] []
  dot_S8192x64_S64x32_S8192x32_1_0_0_1_n_n_wf : DotDims.WF S8192x64 S64x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3.size a ≤ S1024x3.size a
  hwx0_0 : ∀ i : grid0.Coords, EltTy.bits .f32 = 32 ∨ (Rect.block (s := S1024x3) S64x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S1024x3.size a
  hwx0_1 : ∀ i : grid0.Coords, EltTy.bits .f32 = 32 ∨ (Rect.block (s := S1024x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S1024x1024.size a
  hwx0_2 : ∀ i : grid0.Coords, EltTy.bits .f32 = 32 ∨ (Rect.block (s := S1024x1024) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S1024x64.size a
  hwx0_3 : ∀ i : grid0.Coords, EltTy.bits .f32 = 32 ∨ (Rect.block (s := S1024x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S1024x64.size a
  hwx0_4 : ∀ i : grid0.Coords, EltTy.bits .f32 = 32 ∨ (Rect.block (s := S1024x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128x32.size a ≤ S1024x1024x32.size a
  hwx0_8 : ∀ i : grid0.Coords, EltTy.bits .f32 = 32 ∨ (Rect.block (s := S1024x1024x32) S64x128x32.size (cc0_transform_8 i) (hinb0_8 i)).WholeWords (EltTy.packing .f32)

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf

abbrev win0_0 : Pipeline.Window sig grid0 :=
  Pipeline.Window.ofSpec (Memref.whole main_arg1) S64x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S64x128x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x3 : Shape := ⟨2, ![1024, 3]⟩
abbrev S1024x32 : Shape := ⟨2, ![1024, 32]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1024x1x3 : Shape := ⟨3, ![1024, 1, 3]⟩
abbrev S1x1024x3 : Shape := ⟨3, ![1, 1024, 3]⟩
abbrev S1024x1024x3 : Shape := ⟨3, ![1024, 1024, 3]⟩
abbrev S_ : Shape := ⟨0, ![]⟩
abbrev S64x32 : Shape := ⟨2, ![64, 32]⟩
abbrev S1024x64 : Shape := ⟨2, ![1024, 64]⟩
abbrev S1024x1024x1 : Shape := ⟨3, ![1024, 1024, 1]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1x1x64 : Shape := ⟨3, ![1, 1, 64]⟩
abbrev S1024x1024x32 : Shape := ⟨3, ![1024, 1024, 32]⟩
abbrev S1x1x32 : Shape := ⟨3, ![1, 1, 32]⟩

abbrev nBuf : Space → Nat
  | .hbm => 70
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x3, .f32⟩
  | .hbm, ⟨2, _⟩ => ⟨S1024x32, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S1024x1x3, .f32⟩
  | .hbm, ⟨8, _⟩ => ⟨S1x1024x3, .f32⟩
  | .hbm, ⟨9, _⟩ => ⟨S1024x1024x3, .f32⟩
  | .hbm, ⟨10, _⟩ => ⟨S1024x1024x3, .f32⟩
  | .hbm, ⟨11, _⟩ => ⟨S1024x1024x3, .f32⟩
  | .hbm, ⟨12, _⟩ => ⟨S1024x1024x3, .f32⟩
  | .hbm, ⟨13, _⟩ => ⟨S_, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .i1⟩
  | .hbm, ⟨18, _⟩ => ⟨S_, .f32⟩
  | .hbm, ⟨19, _⟩ => ⟨S1024x1024, .f32⟩
  | .hbm, ⟨20, _⟩ => ⟨S1024x1024, .i1⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S64x32, .f32⟩
  | .hbm, ⟨32, _⟩ => ⟨S32x64, .f32⟩
  | .hbm, ⟨33, _⟩ => ⟨S1024x64, .f32⟩
  | .hbm, ⟨34, _⟩ => ⟨S64x32, .f32⟩
  | .hbm, ⟨35, _⟩ => ⟨S32x64, .f32⟩
  | .hbm, ⟨36, _⟩ => ⟨S1024x64, .f32⟩
  | .hbm, ⟨37, _⟩ => ⟨S1024x1024x1, .f32⟩
  | .hbm, ⟨38, _⟩ => ⟨S1024x1x64, .f32⟩
  | .hbm, ⟨39, _⟩ => ⟨S1x1024x64, .f32⟩
  | .hbm, ⟨40, _⟩ => ⟨S1024x1024x64, .f32⟩
  | .hbm, ⟨41, _⟩ => ⟨S1024x1024x64, .f32⟩
  | .hbm, ⟨42, _⟩ => ⟨S1024x1024x64, .f32⟩
  | .hbm, ⟨43, _⟩ => ⟨S1024x1024x64, .f32⟩
  | .hbm, ⟨44, _⟩ => ⟨S1024x1024x64, .f32⟩
  | .hbm, ⟨45, _⟩ => ⟨S1x1x64, .f32⟩
  | .hbm, ⟨46, _⟩ => ⟨S1024x1024x64, .f32⟩
  | .hbm, ⟨47, _⟩ => ⟨S1024x1024x64, .f32⟩
  | .hbm, ⟨48, _⟩ => ⟨S1024x1024x64, .f32⟩
  | .hbm, ⟨49, _⟩ => ⟨S1024x1024x64, .f32⟩
  | .hbm, ⟨50, _⟩ => ⟨S_, .f32⟩
  | .hbm, ⟨51, _⟩ => ⟨S1024x1024x64, .f32⟩
  | .hbm, ⟨52, _⟩ => ⟨S1024x1024x64, .f32⟩
  | .hbm, ⟨53, _⟩ => ⟨S_, .f32⟩
  | .hbm, ⟨54, _⟩ => ⟨S1024x1024x64, .f32⟩
  | .hbm, ⟨55, _⟩ => ⟨S1024x1024x64, .f32⟩
  | .hbm, ⟨56, _⟩ => ⟨S1024x1024x64, .f32⟩
  | .hbm, ⟨57, _⟩ => ⟨S1024x1024x32, .f32⟩
  | .hbm, ⟨58, _⟩ => ⟨S1x1x32, .f32⟩
  | .hbm, ⟨59, _⟩ => ⟨S1024x1024x32, .f32⟩
  | .hbm, ⟨60, _⟩ => ⟨S1024x1024x32, .f32⟩
  | .hbm, ⟨61, _⟩ => ⟨S1024x1024x32, .f32⟩
  | .hbm, ⟨62, _⟩ => ⟨S1024x1024x32, .f32⟩
  | .hbm, ⟨63, _⟩ => ⟨S_, .f32⟩
  | .hbm, ⟨64, _⟩ => ⟨S1024x1024x32, .f32⟩
  | .hbm, ⟨65, _⟩ => ⟨S1024x1024x32, .f32⟩
  | .hbm, ⟨66, _⟩ => ⟨S_, .f32⟩
  | .hbm, ⟨67, _⟩ => ⟨S1024x1024x32, .f32⟩
  | .hbm, ⟨68, _⟩ => ⟨S1024x1024x32, .f32⟩
  | .hbm, ⟨69, _⟩ => ⟨S1024x1024x32, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  bcast_S1024x3_S1024x1x3_0_2 : S1024x3.BroadcastsInDim S1024x1x3 (![0, 2] : Fin 2 → Fin S1024x1x3.rank)
  bcast_S1024x3_S1x1024x3_1_2 : S1024x3.BroadcastsInDim S1x1024x3 (![1, 2] : Fin 2 → Fin S1x1024x3.rank)
  bcast_S1024x1x3_S1024x1024x3_0_1_2 : S1024x1x3.BroadcastsInDim S1024x1024x3 (![0, 1, 2] : Fin 3 → Fin S1024x1024x3.rank)
  bcast_S1x1024x3_S1024x1024x3_0_1_2 : S1x1024x3.BroadcastsInDim S1024x1024x3 (![0, 1, 2] : Fin 3 → Fin S1024x1024x3.rank)
  reducesTo_S1024x1024x3_S1024x1024_d2 : S1024x1024x3.ReducesTo [2] S1024x1024
  h_S_ : 0 < S_.numel
  bcast_S_S1024x1024 : S_.BroadcastsInDim S1024x1024 (![] : Fin 0 → Fin S1024x1024.rank)
  slices_S64x64_S64x32_0_0 : S64x64.Slices ![0, 0] S64x32
  transposes_S64x32_S32x64_1_0 : S64x32.Transposes [1, 0] S32x64
  slices_S64x64_S64x32_0_32 : S64x64.Slices ![0, 32] S64x32
  bcast_S1024x1024_S1024x1024x1_0_1 : S1024x1024.BroadcastsInDim S1024x1024x1 (![0, 1] : Fin 2 → Fin S1024x1024x1.rank)
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  bcast_S1024x1024x1_S1024x1024x64_0_1_2 : S1024x1024x1.BroadcastsInDim S1024x1024x64 (![0, 1, 2] : Fin 3 → Fin S1024x1024x64.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S32_S1x1x32_2 : S32.BroadcastsInDim S1x1x32 (![2] : Fin 1 → Fin S1x1x32.rank)
  bcast_S1x1x32_S1024x1024x32_0_1_2 : S1x1x32.BroadcastsInDim S1024x1024x32 (![0, 1, 2] : Fin 3 → Fin S1024x1024x32.rank)
  bcast_S_S1024x1024x32 : S_.BroadcastsInDim S1024x1024x32 (![] : Fin 0 → Fin S1024x1024x32.rank)
  dot_S1024x32_S32x64_S1024x64_1_0_0_1_n_n_wf : DotDims.WF S1024x32 S32x64 S1024x64 [1] [0] [0] [1] [] []
  dot_S1024x1024x64_S32x64_S1024x1024x32_2_1_01_0_n_n_wf : DotDims.WF S1024x1024x64 S32x64 S1024x1024x32 [2] [1] [0, 1] [0] [] []

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x1024x64_S32x64_S1024x1024x32_2_1_01_0_n_n : DotDims S1024x1024x64 S32x64 S1024x1024x32 where
  lhsContracting := [2]
  rhsContracting := [1]
  lhsNonContracting := [0, 1]
  rhsNonContracting := [0]
  lhsBatch := []
  rhsBatch := []
  wf := dot_S1024x1024x64_S32x64_S1024x1024x32_2_1_01_0_n_n_wf

class Facts : Prop extends Facts₀ where

variable [Facts]
-- ==== Proof.KBody.lean ====
/-
  The kernel's run at one grid point, and the data the pipeline rule asks for, at any value instance.

  The launch stages nine windows: two row blocks of the coordinates (rows of tile `i`, rows of tile `j`: both
  windows read the SAME array), one tile of the edge weights, a row block of each first-layer table, the second
  layer's transposed weights and the two biases whole, and the output tile. The body loads every input block, loads
  the output buffer (a value it never uses), and stores one value over the whole output block. So after the body
  the output's staging buffer holds that value, every input's holds what it held, and the value is a function of
  the eight input blocks and of the tile's position alone.

  The coordinates' array is held once by the launch and read by two windows: each window is given one half of the
  array's share, which is all a read needs.
-/
import proofs.«120420_j39470749450672_1_alg».proof.Proof.Gen.Kernel.Launch
import proofs.«120420_j39470749450672_1_alg».proof.Proof.Gen.Kernel.Skeleton
import proofs.«120420_j39470749450672_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the launch is reached: the argument arrays as given, and the results of the
    nine host operations before it (the two first-layer tables, the transposed second-layer weights, the biases as
    rows). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rIn0 : Rect S64x3 := Rect.unit (s := S64x3) ![0, 0] S64x3.size inb_S64x3_S64x3_0_0
abbrev rIn1 : Rect S128x3 := Rect.unit (s := S128x3) ![0, 0] S128x3.size inb_S128x3_S128x3_0_0
abbrev rIn2 : Rect S64x128 := Rect.unit (s := S64x128) ![0, 0] S64x128.size inb_S64x128_S64x128_0_0
abbrev rIn3 : Rect S64x64 := Rect.unit (s := S64x64) ![0, 0] S64x64.size inb_S64x64_S64x64_0_0
abbrev rIn4 : Rect S128x64 := Rect.unit (s := S128x64) ![0, 0] S128x64.size inb_S128x64_S128x64_0_0
abbrev rIn5 : Rect S64x32 := Rect.unit (s := S64x32) ![0, 0] S64x32.size inb_S64x32_S64x32_0_0
abbrev rIn6 : Rect S1x64 := Rect.unit (s := S1x64) ![0, 0] S1x64.size inb_S1x64_S1x64_0_0
abbrev rIn7 : Rect S1x32 := Rect.unit (s := S1x32) ![0, 0] S1x32.size inb_S1x32_S1x32_0_0
abbrev rOut : Rect S64x128x32 := Rect.unit (s := S64x128x32) ![0, 0, 0] S64x128x32.size inb_S64x128x32_S64x128x32_0_0_0

/-- The output tile after the body at tile position `i`, from the eight input blocks: the one whole-block store. -/
def outBlk (i : grid0.Coords) (x0 : Vec F S64x3 .f32) (x1 : Vec F S128x3 .f32) (x2 : Vec F S64x128 .f32) (x3 : Vec F S64x64 .f32)
    (x4 : Vec F S128x64 .f32) (x5 : Vec F S64x32 .f32) (x6 : Vec F S1x64 .f32) (x7 : Vec F S1x32 .f32) : Vec F S64x128x32 .f32 :=
  View.canon [⟨rOut, k0_pay1 (k0_pay2 i (View.ld x0 rIn0) (View.ld x1 rIn1)) (View.ld x2 rIn2) (View.ld x3 rIn3) (View.ld x4 rIn4)
    (View.ld x6 rIn6) (View.ld x5 rIn5) (View.ld x7 rIn7)⟩]

/-- The one store covers the output block. -/
theorem coverOut (p0 : Vec F S64x128x32 .f32) (y : S64x128x32.Idx) :
    ∃ pc ∈ ([⟨rOut, p0⟩] : List (View.Piece (Elt F) S64x128x32 .f32)), y ∈ pc.1.set :=
  View.cover_of_tiled [⟨rOut, p0⟩] S64x128x32.size (by rfl) y

/-! ## The body's triple -/

set_option maxHeartbeats 2000000 in
/-- The body on whole staging buffers — the inputs' at the contents read as `x0 … x7`, the output's at anything —
    runs to a continuation that holds the inputs' as they were and the output's at `outBlk` of them. -/
theorem sound_kernel (c : Dev nD) (E : Set ℕ) (i : grid0.Coords)
    (arg2 : Memref sig .tc .vmem S64x3 .f32) (harg2 : arg2.IsWhole) (arg3 : Memref sig .tc .vmem S128x3 .f32) (harg3 : arg3.IsWhole)
    (arg4 : Memref sig .tc .vmem S64x128 .f32) (harg4 : arg4.IsWhole) (arg5 : Memref sig .tc .vmem S64x64 .f32) (harg5 : arg5.IsWhole)
    (arg6 : Memref sig .tc .vmem S128x64 .f32) (harg6 : arg6.IsWhole) (arg7 : Memref sig .tc .vmem S64x32 .f32) (harg7 : arg7.IsWhole)
    (arg8 : Memref sig .tc .vmem S1x64 .f32) (harg8 : arg8.IsWhole) (arg9 : Memref sig .tc .vmem S1x32 .f32) (harg9 : arg9.IsWhole)
    (arg10 : Memref sig .tc .vmem S64x128x32 .f32) (harg10 : arg10.IsWhole)
    (x0 : Vec F S64x3 .f32) (x1 : Vec F S128x3 .f32) (x2 : Vec F S64x128 .f32) (x3 : Vec F S64x64 .f32)
    (x4 : Vec F S128x64 .f32) (x5 : Vec F S64x32 .f32) (x6 : Vec F S1x64 .f32) (x7 : Vec F S1x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (outBlk i x0 x1 x2 x3 x4 x5 x6 x7)) -∗ K ⟨⟩))
      ⊢ wp frame (wpE (defs₀ (F := F)) Variants.none c none) E
          (cc0__phi_e_kernel i arg2 harg2 arg3 harg3 arg4 harg4 arg5 harg5 arg6 harg6 arg7 harg7 arg8 harg8 arg9 harg9 arg10 harg10) K := by
  simp only [cc0__phi_e_kernel_eq_skeleton]; unfold cc0__phi_e_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverOut _)

/-! ## An input window's buffer holds its block

At every point an input window's current staging buffer holds the window's block of its array there, fetched at
that point or not: where it is not fetched the block index has not moved since the last fetch, and the body leaves
an input's buffer as it found it. Stated for any proof data whose entry arrays are `V`'s and whose body leaves the
block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The pipeline's proof data on core `c`: the arrays as the launch finds them; after the body at point `t` every
    input's buffer at its block and the output's at `outBlk` of the input blocks at the tile's position; between
    points only the core's other scoped buffers, untouched; nothing owed. The coordinates' array is read by windows 0
    and 1: each holds one half of its share; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (grid0.coords t) (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) :
    (dats m 0 c).after 8 t = outBlk (grid0.coords t) (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.Kernel.Run

end
-- ==== Proof.KRun.lean ====
/-
  The whole run of the program whose one launch reads the coordinates' array through two windows, at any value
  instance: every weakly fair execution ends, nothing faults, each window's array ends at what the pipeline rule
  computes from the proof data (an input's array as the launch found it; the output's overwritten tile by tile by
  what the body left), and every other buffer that lives past the launch ends as the launch found it.

  The launch is handed the distinct buffers behind the windows' arrays, each whole. The coordinates' buffer serves
  two windows, so its share is cut in two halves, one per window; every other array goes to its one window whole.
  A half share is all a window's reads need, and at the end both halves still hold the entry contents.
-/
import proofs.«120420_j39470749450672_1_alg».proof.Proof.KBody

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays' buffers to the windows -/

/-- The distinct buffers behind the windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_v2) ↦{fullShare} W main_v2) ∗ (((c : Thread nD τ).loc main_v5) ↦{fullShare} W main_v5) ∗ (((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9) ↦{fullShare} W main_v9)) := by
  unfold Pipeline.arrBufs
  exact bigSep_eq_bigSepL_of_eq [main_arg1, main_arg0, main_v2, main_v5, main_v6, main_v7, main_v8, main_v9] (by decide) (by decide) _

/-- The buffers behind the windows' arrays, each whole at its entry contents, are the nine windows' arrays at the
    proof data's shares: the coordinates' buffer as two halves, the other seven each to its one window. -/
theorem hsplit (c : Dev nD) :
    (Pipeline.arrBufs spec0 c (V m c) : sProp 𝕄) ⊢ (dats m 0 c).arrays ((dats m 0 c).arrAt · 0) := by
  rw [arrBufs0_eq]
  unfold Dat.arrays
  rw [bigSep_W0]
  have hz : ∀ w, (dats m 0 c).arrAt w 0 = (dats m 0 c).A w := fun _ => rfl
  simp only [View.set_whole, hz, A_eq]
  rw [show (dats m 0 c).share 0 = fullShare.left from rfl]
  rw [show (dats m 0 c).share 1 = fullShare.right from rfl]
  rw [show (dats m 0 c).share 2 = fullShare from rfl]
  rw [show (dats m 0 c).share 3 = fullShare from rfl]
  rw [show (dats m 0 c).share 4 = fullShare from rfl]
  rw [show (dats m 0 c).share 5 = fullShare from rfl]
  rw [show (dats m 0 c).share 6 = fullShare from rfl]
  rw [show (dats m 0 c).share 7 = fullShare from rfl]
  rw [show (dats m 0 c).share 8 = fullShare from rfl]
  iintro ⟨H1, H0, H2, H5, H6, H7, H8, H9⟩
  ihave Hs := (pointsTo_share (PosShare.mem_left_op_right fullShare)).1 $$ H1
  icases Hs with ⟨Ha, Hb⟩
  isplitl [Ha]; · iexact Ha
  isplitl [Hb]; · iexact Hb
  isplitl [H0]; · iexact H0
  isplitl [H2]; · iexact H2
  isplitl [H5]; · iexact H5
  isplitl [H6]; · iexact H6
  isplitl [H7]; · iexact H7
  isplitl [H8]; · iexact H8
  iexact H9

/-! ## The run -/

/-- The pipeline's launch element: its cells' and tokens' initial ghost state. -/
def u₀ : UR sig nD τ := initOf (Pipeline.cells cfgs cellOf_inj) (Pipeline.launchToks cfgs cellOf_inj)

/-- What the run ends in: every window's array at what the rule computes from the proof data, every other buffer
    that outlives the launch as the launch found it. -/
def RunPost (r : PUnit × MemSt nD τ sig (Elt F)) : Prop :=
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
/-- At the compiled mesh, for any values, from any memory with zero counters: every weakly fair execution of the
    program ends, faulting nowhere, in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => by
      rw [Φ_eq]
      iintro ⟨-, H⟩
      iexact H)
    (hout := fun c => by
      rw [Φ_eq]
      iintro H
      isplitr
      · iempintro
      · iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Run.run_main' depends on axioms: [propext, Classical.choice, Quot.sound] -/
#guard_msgs in #print axioms run_main

/-! ## The argument arrays end as given -/

/-- No host operation before the launch writes `main_arg0`: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg1`: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg2`: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg3`: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg4`: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg5`: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg6`: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- The argument arrays end unchanged: the edge weights and the coordinates are input windows' arrays, which the
    rule never writes; the other five are read by host operations only and bypass the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).2 main_arg6 (Pipeline.mem_restRefs_of _ rfl (by decide))).trans (V_main_arg6 m c)⟩) (run_main m ρ)

end Cert.Kernel.Run

end
-- ==== Proof.KIBody.lean ====
/-
  The kernel's run at one grid point, and the data the pipeline rule asks for, at any value instance.

  The launch stages nine windows: two row blocks of the coordinates (rows of tile `i`, rows of tile `j`: both
  windows read the SAME array), one tile of the edge weights, a row block of each first-layer table, the second
  layer's transposed weights and the two biases whole, and the output tile. The body loads every input block, loads
  the output buffer (a value it never uses), and stores one value over the whole output block. So after the body
  the output's staging buffer holds that value, every input's holds what it held, and the value is a function of
  the eight input blocks and of the tile's position alone.

  The coordinates' array is held once by the launch and read by two windows: each window is given one half of the
  array's share, which is all a read needs.
-/
import proofs.«120420_j39470749450672_1_alg».proof.Proof.Gen.KernelIdeal.Launch
import proofs.«120420_j39470749450672_1_alg».proof.Proof.Gen.KernelIdeal.Skeleton
import proofs.«120420_j39470749450672_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the launch is reached: the argument arrays as given, and the results of the
    nine host operations before it (the two first-layer tables, the transposed second-layer weights, the biases as
    rows). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rIn0 : Rect S64x3 := Rect.unit (s := S64x3) ![0, 0] S64x3.size inb_S64x3_S64x3_0_0
abbrev rIn1 : Rect S128x3 := Rect.unit (s := S128x3) ![0, 0] S128x3.size inb_S128x3_S128x3_0_0
abbrev rIn2 : Rect S64x128 := Rect.unit (s := S64x128) ![0, 0] S64x128.size inb_S64x128_S64x128_0_0
abbrev rIn3 : Rect S64x64 := Rect.unit (s := S64x64) ![0, 0] S64x64.size inb_S64x64_S64x64_0_0
abbrev rIn4 : Rect S128x64 := Rect.unit (s := S128x64) ![0, 0] S128x64.size inb_S128x64_S128x64_0_0
abbrev rIn5 : Rect S64x32 := Rect.unit (s := S64x32) ![0, 0] S64x32.size inb_S64x32_S64x32_0_0
abbrev rIn6 : Rect S1x64 := Rect.unit (s := S1x64) ![0, 0] S1x64.size inb_S1x64_S1x64_0_0
abbrev rIn7 : Rect S1x32 := Rect.unit (s := S1x32) ![0, 0] S1x32.size inb_S1x32_S1x32_0_0
abbrev rOut : Rect S64x128x32 := Rect.unit (s := S64x128x32) ![0, 0, 0] S64x128x32.size inb_S64x128x32_S64x128x32_0_0_0

/-- The output tile after the body at tile position `i`, from the eight input blocks: the one whole-block store. -/
def outBlk (i : grid0.Coords) (x0 : Vec F S64x3 .f32) (x1 : Vec F S128x3 .f32) (x2 : Vec F S64x128 .f32) (x3 : Vec F S64x64 .f32)
    (x4 : Vec F S128x64 .f32) (x5 : Vec F S64x32 .f32) (x6 : Vec F S1x64 .f32) (x7 : Vec F S1x32 .f32) : Vec F S64x128x32 .f32 :=
  View.canon [⟨rOut, k0_pay1 (k0_pay2 i (View.ld x0 rIn0) (View.ld x1 rIn1)) (View.ld x2 rIn2) (View.ld x3 rIn3) (View.ld x4 rIn4)
    (View.ld x6 rIn6) (View.ld x5 rIn5) (View.ld x7 rIn7)⟩]

/-- The one store covers the output block. -/
theorem coverOut (p0 : Vec F S64x128x32 .f32) (y : S64x128x32.Idx) :
    ∃ pc ∈ ([⟨rOut, p0⟩] : List (View.Piece (Elt F) S64x128x32 .f32)), y ∈ pc.1.set :=
  View.cover_of_tiled [⟨rOut, p0⟩] S64x128x32.size (by rfl) y

/-! ## The body's triple -/

set_option maxHeartbeats 2000000 in
/-- The body on whole staging buffers — the inputs' at the contents read as `x0 … x7`, the output's at anything —
    runs to a continuation that holds the inputs' as they were and the output's at `outBlk` of them. -/
theorem sound_kernel (c : Dev nD) (E : Set ℕ) (i : grid0.Coords)
    (arg2 : Memref sig .tc .vmem S64x3 .f32) (harg2 : arg2.IsWhole) (arg3 : Memref sig .tc .vmem S128x3 .f32) (harg3 : arg3.IsWhole)
    (arg4 : Memref sig .tc .vmem S64x128 .f32) (harg4 : arg4.IsWhole) (arg5 : Memref sig .tc .vmem S64x64 .f32) (harg5 : arg5.IsWhole)
    (arg6 : Memref sig .tc .vmem S128x64 .f32) (harg6 : arg6.IsWhole) (arg7 : Memref sig .tc .vmem S64x32 .f32) (harg7 : arg7.IsWhole)
    (arg8 : Memref sig .tc .vmem S1x64 .f32) (harg8 : arg8.IsWhole) (arg9 : Memref sig .tc .vmem S1x32 .f32) (harg9 : arg9.IsWhole)
    (arg10 : Memref sig .tc .vmem S64x128x32 .f32) (harg10 : arg10.IsWhole)
    (x0 : Vec F S64x3 .f32) (x1 : Vec F S128x3 .f32) (x2 : Vec F S64x128 .f32) (x3 : Vec F S64x64 .f32)
    (x4 : Vec F S128x64 .f32) (x5 : Vec F S64x32 .f32) (x6 : Vec F S1x64 .f32) (x7 : Vec F S1x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (outBlk i x0 x1 x2 x3 x4 x5 x6 x7)) -∗ K ⟨⟩))
      ⊢ wp frame (wpE (defs₀ (F := F)) Variants.none c none) E
          (cc0__phi_e_kernel i arg2 harg2 arg3 harg3 arg4 harg4 arg5 harg5 arg6 harg6 arg7 harg7 arg8 harg8 arg9 harg9 arg10 harg10) K := by
  simp only [cc0__phi_e_kernel_eq_skeleton]; unfold cc0__phi_e_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverOut _)

/-! ## An input window's buffer holds its block

At every point an input window's current staging buffer holds the window's block of its array there, fetched at
that point or not: where it is not fetched the block index has not moved since the last fetch, and the body leaves
an input's buffer as it found it. Stated for any proof data whose entry arrays are `V`'s and whose body leaves the
block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The pipeline's proof data on core `c`: the arrays as the launch finds them; after the body at point `t` every
    input's buffer at its block and the output's at `outBlk` of the input blocks at the tile's position; between
    points only the core's other scoped buffers, untouched; nothing owed. The coordinates' array is read by windows 0
    and 1: each holds one half of its share; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (grid0.coords t) (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) :
    (dats m 0 c).after 8 t = outBlk (grid0.coords t) (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline rule's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.KIRun.lean ====
/-
  The whole run of the program whose one launch reads the coordinates' array through two windows, at any value
  instance: every weakly fair execution ends, nothing faults, each window's array ends at what the pipeline rule
  computes from the proof data (an input's array as the launch found it; the output's overwritten tile by tile by
  what the body left), and every other buffer that lives past the launch ends as the launch found it.

  The launch is handed the distinct buffers behind the windows' arrays, each whole. The coordinates' buffer serves
  two windows, so its share is cut in two halves, one per window; every other array goes to its one window whole.
  A half share is all a window's reads need, and at the end both halves still hold the entry contents.
-/
import proofs.«120420_j39470749450672_1_alg».proof.Proof.KIBody

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays' buffers to the windows -/

/-- The distinct buffers behind the windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_v2) ↦{fullShare} W main_v2) ∗ (((c : Thread nD τ).loc main_v5) ↦{fullShare} W main_v5) ∗ (((c : Thread nD τ).loc main_v6) ↦{fullShare} W main_v6) ∗ (((c : Thread nD τ).loc main_v7) ↦{fullShare} W main_v7) ∗ (((c : Thread nD τ).loc main_v8) ↦{fullShare} W main_v8) ∗ (((c : Thread nD τ).loc main_v9) ↦{fullShare} W main_v9)) := by
  unfold Pipeline.arrBufs
  exact bigSep_eq_bigSepL_of_eq [main_arg1, main_arg0, main_v2, main_v5, main_v6, main_v7, main_v8, main_v9] (by decide) (by decide) _

/-- The buffers behind the windows' arrays, each whole at its entry contents, are the nine windows' arrays at the
    proof data's shares: the coordinates' buffer as two halves, the other seven each to its one window. -/
theorem hsplit (c : Dev nD) :
    (Pipeline.arrBufs spec0 c (V m c) : sProp 𝕄) ⊢ (dats m 0 c).arrays ((dats m 0 c).arrAt · 0) := by
  rw [arrBufs0_eq]
  unfold Dat.arrays
  rw [bigSep_W0]
  have hz : ∀ w, (dats m 0 c).arrAt w 0 = (dats m 0 c).A w := fun _ => rfl
  simp only [View.set_whole, hz, A_eq]
  rw [show (dats m 0 c).share 0 = fullShare.left from rfl]
  rw [show (dats m 0 c).share 1 = fullShare.right from rfl]
  rw [show (dats m 0 c).share 2 = fullShare from rfl]
  rw [show (dats m 0 c).share 3 = fullShare from rfl]
  rw [show (dats m 0 c).share 4 = fullShare from rfl]
  rw [show (dats m 0 c).share 5 = fullShare from rfl]
  rw [show (dats m 0 c).share 6 = fullShare from rfl]
  rw [show (dats m 0 c).share 7 = fullShare from rfl]
  rw [show (dats m 0 c).share 8 = fullShare from rfl]
  iintro ⟨H1, H0, H2, H5, H6, H7, H8, H9⟩
  ihave Hs := (pointsTo_share (PosShare.mem_left_op_right fullShare)).1 $$ H1
  icases Hs with ⟨Ha, Hb⟩
  isplitl [Ha]; · iexact Ha
  isplitl [Hb]; · iexact Hb
  isplitl [H0]; · iexact H0
  isplitl [H2]; · iexact H2
  isplitl [H5]; · iexact H5
  isplitl [H6]; · iexact H6
  isplitl [H7]; · iexact H7
  isplitl [H8]; · iexact H8
  iexact H9

/-! ## The run -/

/-- The pipeline's launch element: its cells' and tokens' initial ghost state. -/
def u₀ : UR sig nD τ := initOf (Pipeline.cells cfgs cellOf_inj) (Pipeline.launchToks cfgs cellOf_inj)

/-- What the run ends in: every window's array at what the rule computes from the proof data, every other buffer
    that outlives the launch as the launch found it. -/
def RunPost (r : PUnit × MemSt nD τ sig (Elt F)) : Prop :=
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
/-- At the compiled mesh, for any values, from any memory with zero counters: every weakly fair execution of the
    program ends, faulting nowhere, in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun c => by
      rw [Φ_eq]
      iintro ⟨-, H⟩
      iexact H)
    (hout := fun c => by
      rw [Φ_eq]
      iintro H
      isplitr
      · iempintro
      · iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Run.run_main' depends on axioms: [propext, Classical.choice, Quot.sound] -/
#guard_msgs in #print axioms run_main

/-! ## The argument arrays end as given -/

/-- No host operation before the launch writes `main_arg0`: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg1`: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg2`: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg3`: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg4`: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg5`: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
/-- No host operation before the launch writes `main_arg6`: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- The argument arrays end unchanged: the edge weights and the coordinates are input windows' arrays, which the
    rule never writes; the other five are read by host operations only and bypass the launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).2 main_arg6 (Pipeline.mem_restRefs_of _ rfl (by decide))).trans (V_main_arg6 m c)⟩) (run_main m ρ)

end Cert.KernelIdeal.Run

end
-- ==== Proof.Spec.lean ====
/-
  What both programs compute, as ONE function of the argument arrays at the ideal values, index by index.

  For nodes `i`, `j` and output feature `o`:
    w(i,j)      = Edges(i,j) · D(i,j)                       (`D` the pairwise distance of the coordinates)
    pre1(i,j,h) = w(i,j) · (A(i,h) + B(j,h)) + b1(h)        (`A`, `B` the two halves of the first linear layer
                                                             applied to the embeddings of `i` and of `j`)
    h1          = pre1 · σ(pre1)                             (σ the logistic function)
    pre2(i,j,o) = Σ_h h1(i,j,h) · W2(o,h) + b2(o)
    out(i,j,o)  = pre2 · σ(pre2)

  The distance is spelt in two ways. One expands the square and masks the diagonal by the node numbers:
  `√(max(|c_i|² + |c_j|² − 2 c_i·c_j, 0))` off the diagonal and `0` on it. The other sums the squared differences
  and guards the root by the sign of the sum: `√s` where `s = Σ_k (c_i,k − c_j,k)² > 0` and `0` elsewhere.
  For real coordinates the two agree: the expansion is the sum of squared differences, which is never negative,
  vanishes on the diagonal, and has root `0` where it vanishes.
-/
import Idealize.ShloMosaic.Lib.ValueIdx
import Idealize.ShloMosaic.PureOps.Ideal

noncomputable section

namespace Cert.Spec

open Idealize.ShloMosaic Idealize.ShloMosaic.ValueIdx

/-- The logistic swish `x · σ(x)` on the extended reals. -/
def swish (x : EReal) : EReal := x * Ideal.logistic x

/-- The distance by the expanded square, the diagonal masked by the node numbers. -/
def distExpanded (C : (⟨2, ![1024, 3]⟩ : Shape).Idx → EReal) (i j : Fin 1024) : EReal :=
  if i.val = j.val then 0
  else Ideal.sqrt (max (((∑ k : Fin 3, C (ix2 i k) * C (ix2 i k)) + (∑ k : Fin 3, C (ix2 j k) * C (ix2 j k)))
      - 2 * ((C (ix2 i 0) * C (ix2 j 0) + C (ix2 i 1) * C (ix2 j 1)) + C (ix2 i 2) * C (ix2 j 2))) 0)

/-- The sum of the squared coordinate differences. -/
def sqDiff (C : (⟨2, ![1024, 3]⟩ : Shape).Idx → EReal) (i j : Fin 1024) : EReal :=
  ∑ k : Fin 3, (C (ix2 i k) - C (ix2 j k)) * (C (ix2 i k) - C (ix2 j k))

/-- The distance by the summed squared differences, the root guarded by the sum's sign. -/
def distGuarded (C : (⟨2, ![1024, 3]⟩ : Shape).Idx → EReal) (i j : Fin 1024) : EReal :=
  if 0 < sqDiff C i j then Ideal.sqrt (if 0 < sqDiff C i j then sqDiff C i j else 1) else 0

/-- The two-layer edge function over a distance table `D` and the two first-layer tables `A`, `B`. -/
def edgeFn (D : Fin 1024 → Fin 1024 → EReal)
    (E : (⟨2, ![1024, 1024]⟩ : Shape).Idx → EReal)
    (A B : (⟨2, ![1024, 64]⟩ : Shape).Idx → EReal)
    (b1 : (⟨1, ![64]⟩ : Shape).Idx → EReal)
    (W2 : (⟨2, ![32, 64]⟩ : Shape).Idx → EReal)
    (b2 : (⟨1, ![32]⟩ : Shape).Idx → EReal) :
    (⟨3, ![1024, 1024, 32]⟩ : Shape).Idx → EReal := fun y =>
  swish ((∑ h : Fin 64, swish ((E (ix2 (y 0) (y 1)) * D (y 0) (y 1)) * (A (ix2 (y 0) h) + B (ix2 (y 1) h)) + b1 (ix1 h))
      * W2 (ix2 (y 2) h)) + b2 (ix1 (y 2)))

theorem edgeFn_apply (D : Fin 1024 → Fin 1024 → EReal)
    (E : (⟨2, ![1024, 1024]⟩ : Shape).Idx → EReal)
    (A B : (⟨2, ![1024, 64]⟩ : Shape).Idx → EReal)
    (b1 : (⟨1, ![64]⟩ : Shape).Idx → EReal)
    (W2 : (⟨2, ![32, 64]⟩ : Shape).Idx → EReal)
    (b2 : (⟨1, ![32]⟩ : Shape).Idx → EReal) (i j : Fin 1024) (o : Fin 32) :
    edgeFn D E A B b1 W2 b2 (ix3 i j o)
      = swish ((∑ h : Fin 64, swish ((E (ix2 i j) * D i j) * (A (ix2 i h) + B (ix2 j h)) + b1 (ix1 h)) * W2 (ix2 o h))
          + b2 (ix1 o)) := rfl

/-- The edge function depends on the distance table only through its values. -/
theorem edgeFn_congr {D D' : Fin 1024 → Fin 1024 → EReal} (h : ∀ i j, D i j = D' i j)
    (E : (⟨2, ![1024, 1024]⟩ : Shape).Idx → EReal)
    (A B : (⟨2, ![1024, 64]⟩ : Shape).Idx → EReal)
    (b1 : (⟨1, ![64]⟩ : Shape).Idx → EReal)
    (W2 : (⟨2, ![32, 64]⟩ : Shape).Idx → EReal)
    (b2 : (⟨1, ![32]⟩ : Shape).Idx → EReal) :
    edgeFn D E A B b1 W2 b2 = edgeFn D' E A B b1 W2 b2 := by
  have : D = D' := funext fun i => funext fun j => h i j
  rw [this]

end Cert.Spec

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.KerPayload.lean ====
/-
  The kernel body's two pure terms, read at one element at the ideal values.

  The distance block of the tile at grid point `i` (rows `(i 0) · 64 + p`, columns `(i 1) · 128 + q`): at `(p, q)` it is `0`
  where the row's node number equals the column's, and elsewhere the root of the expanded square
  `|c_p|² + |c_q|² − 2 c_p · c_q` clamped at zero, the three coordinates of the inner product written out.
  The stored block: at `(p, q, o)` the two-layer edge function of the block's loads,
  `swish (Σ_h swish (w · (A(p,h) + B(q,h)) + b1(h)) · W2(h,o) + b2(o))` with `w = E(p,q) · D(p,q)`.

  On the way: the keepdims layout forms read at an index (a vector as a column, a column or a row spread over a block, a
  unit axis added in the middle or at the end of a rank-three shape and spread again), the equality of two node numbers as
  32-bit words against their equality as naturals, and the flattening `[64, 128, ·] ↔ [8192, ·]` around the product.
-/
import proofs.«120420_j39470749450672_1_alg».proof.Proof.Gen.KernelIdeal.Skeleton
import proofs.«120420_j39470749450672_1_alg».proof.Proof.Spec
import proofs.«120420_j39470749450672_1_alg».proof.Proof.LibPlainDot
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal
open Cert.KernelIdeal.Gen (k0_pay1 k0_pay2)
open Cert.KernelIdeal.Facts₀

/-! ## Layout operations at an index: the keepdims forms -/

section Layout
variable {α : Type}

/-- A vector `[a]` cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The two constants -/

/-- The word `0x40000000` is the number two. -/
theorem ofBits_two_f32 : Ideal.ofBits .f32 0x40000000#32 = 2 := by
  simp [Ideal.ofBits, Ideal.ieee]
  rw [← EReal.coe_mul]
  norm_num
  rfl

/-! ## The diagonal mask -/

/-- Two global node numbers, each a tile offset plus a position in the tile, are equal as 32-bit words exactly when they are
    equal as naturals: both stay far below `2 ^ 32`. -/
theorem mask_bit (a b p q : ℕ) (ha : a < 16) (hb : b < 8) (hp : p < 64) (hq : q < 128) :
    IntOp.cmpi .eq (IntOp.addi (Scalar.muli (BitVec.ofNat 32 a) 64#32) (BitVec.ofNat 32 p))
        (IntOp.addi (Scalar.muli (BitVec.ofNat 32 b) 128#32) (BitVec.ofNat 32 q))
      = if a * 64 + p = b * 128 + q then 1#1 else 0#1 := by
  have e1 : IntOp.addi (Scalar.muli (BitVec.ofNat 32 a) 64#32) (BitVec.ofNat 32 p) = BitVec.ofNat 32 (a * 64 + p) := by
    simp [IntOp.addi, Scalar.muli, IntOp.muli, BitVec.ofNat_add, BitVec.ofNat_mul]
  have e2 : IntOp.addi (Scalar.muli (BitVec.ofNat 32 b) 128#32) (BitVec.ofNat 32 q) = BitVec.ofNat 32 (b * 128 + q) := by
    simp [IntOp.addi, Scalar.muli, IntOp.muli, BitVec.ofNat_add, BitVec.ofNat_mul]
  rw [e1, e2]
  unfold IntOp.cmpi
  by_cases h : a * 64 + p = b * 128 + q
  · rw [if_pos h, h]; simp
  · rw [if_neg h]
    have hne : BitVec.ofNat 32 (a * 64 + p) ≠ BitVec.ofNat 32 (b * 128 + q) := by
      intro hh
      have := congrArg BitVec.toNat hh
      simp only [BitVec.toNat_ofNat] at this
      omega
    rw [show (BitVec.ofNat 32 (a * 64 + p) == BitVec.ofNat 32 (b * 128 + q)) = false from beq_eq_false_iff_ne.mpr hne]
    rfl

/-- The mask of the distance block at `(p, q)`: set exactly where the row's node number equals the column's. -/
theorem mask_apply (i : grid0.Coords) (p : Fin 64) (q : Fin 128) :
    cmpi .eq (addi (broadcast S64x128 (Scalar.muli (BitVec.ofNat 32 (i 0).val) 64#32)) (iota .tc S64x128 32 [0] iota_S64x128_d0_w32))
        (addi (broadcast S64x128 (Scalar.muli (BitVec.ofNat 32 (i 1).val) 128#32)) (iota .tc S64x128 32 [1] iota_S64x128_d1_w32)) (ix2 p q)
      = if (i 0).val * 64 + p.val = (i 1).val * 128 + q.val then 1#1 else 0#1 := by
  show IntOp.cmpi .eq (IntOp.addi (Scalar.muli _ 64#32) (iota .tc S64x128 32 [0] iota_S64x128_d0_w32 (ix2 p q)))
      (IntOp.addi (Scalar.muli _ 128#32) (iota .tc S64x128 32 [1] iota_S64x128_d1_w32 (ix2 p q))) = _
  rw [iota_single_apply, iota_single_apply]
  exact mask_bit _ _ _ _ (i 0).isLt (i 1).isLt p.isLt q.isLt

/-! ## The distance block's pieces -/

section Dist
variable (v0 : Vec Ideal S64x3 .f32) (v1 : Vec Ideal S128x3 .f32) (p : Fin 64) (q : Fin 128)

/-- The squared norm of row `p`'s coordinates: the lane sum of the squares. -/
theorem rowSq_apply :
    multiReduction (F := Ideal) .add [1] S64 (mulf v0 v0) 0x00000000#32 reduces_S64x3_S64 (.inl rfl) rfl (ix1 p)
      = ∑ k : Fin 3, v0 (ix2 p k) * v0 (ix2 p k) := by
  refine (Ideal.multiReduction_add_single (mulf v0 v0) 0x00000000#32 reduces_S64x3_S64 (.inl rfl) rfl (ix1 p)).trans ?_
  show ∑ k : Fin 3, _ = _
  refine Finset.sum_congr rfl fun k _ => ?_
  have e : reduces_S64x3_S64.lift (ix1 p) k = ix2 p k := by
    funext a; match a with | ⟨0, _⟩ => rfl | ⟨1, _⟩ => rfl
  rw [e]; rfl

/-- The squared norm of column `q`'s coordinates, read through the transposed block. -/
theorem colSq_apply :
    multiReduction (F := Ideal) .add [0] S128
        (mulf (transpose S3x128 [1, 0] v1 transposes_S128x3_p1_0_S3x128) (transpose S3x128 [1, 0] v1 transposes_S128x3_p1_0_S3x128))
        0x00000000#32 reduces_S3x128_S128 (.inl rfl) rfl (ix1 q)
      = ∑ k : Fin 3, v1 (ix2 q k) * v1 (ix2 q k) := by
  refine (Ideal.multiReduction_add_single _ 0x00000000#32 reduces_S3x128_S128 (.inl rfl) rfl (ix1 q)).trans ?_
  show ∑ k : Fin 3, _ = _
  refine Finset.sum_congr rfl fun k _ => ?_
  have e : reduces_S3x128_S128.lift (ix1 q) k = ix2 k q := by
    funext a; match a with | ⟨0, _⟩ => rfl | ⟨1, _⟩ => rfl
  rw [e]
  show transpose S3x128 [1, 0] v1 transposes_S128x3_p1_0_S3x128 (ix2 k q) * transpose S3x128 [1, 0] v1 transposes_S128x3_p1_0_S3x128 (ix2 k q) = _
  rw [transpose_ix2_apply]

/-- The row norms as a column, spread over the block. -/
theorem rowSq_bc_apply :
    broadcastTo S64x128 (shapeCast S64x1
        (multiReduction (F := Ideal) .add [1] S64 (mulf v0 v0) 0x00000000#32 reduces_S64x3_S64 (.inl rfl) rfl) shapeCasts_S64_S64x1)
        broadcasts_S64x1_S64x128 (ix2 p q)
      = ∑ k : Fin 3, v0 (ix2 p k) * v0 (ix2 p k) := by
  rw [broadcastTo_a1_ab_apply, shapeCast_a_a1_apply, rowSq_apply]

/-- The column norms as a row, spread over the block. -/
theorem colSq_bc_apply :
    broadcastTo S64x128 (shapeCast S1x128
        (multiReduction (F := Ideal) .add [0] S128
          (mulf (transpose S3x128 [1, 0] v1 transposes_S128x3_p1_0_S3x128) (transpose S3x128 [1, 0] v1 transposes_S128x3_p1_0_S3x128))
          0x00000000#32 reduces_S3x128_S128 (.inl rfl) rfl) shapeCasts_S128_S1x128)
        broadcasts_S1x128_S64x128 (ix2 p q)
      = ∑ k : Fin 3, v1 (ix2 q k) * v1 (ix2 q k) := by
  rw [broadcastTo_1b_ab_apply, shapeCast_a_1a_apply, colSq_apply]

/-- One term of the inner product: coordinate `k` of row `p` times coordinate `k` of column `q`. -/
theorem cross_apply (o : ℕ) (k : Fin 3) (hk : k.val = o)
    (hs0 : S64x3.Slices ![0, o] S64x1) (hs1 : S3x128.Slices ![o, 0] S1x128) :
    mulf (F := Ideal) (φ := .f32) (broadcastTo S64x128 (extractStridedSlice S64x1 ![0, o] v0 hs0) broadcasts_S64x1_S64x128)
        (broadcastTo S64x128 (extractStridedSlice S1x128 ![o, 0] (transpose S3x128 [1, 0] v1 transposes_S128x3_p1_0_S3x128) hs1)
          broadcasts_S1x128_S64x128) (ix2 p q)
      = v0 (ix2 p k) * v1 (ix2 q k) := by
  show broadcastTo S64x128 (extractStridedSlice S64x1 ![0, o] v0 hs0) broadcasts_S64x1_S64x128 (ix2 p q)
      * broadcastTo S64x128 (extractStridedSlice S1x128 ![o, 0] (transpose S3x128 [1, 0] v1 transposes_S128x3_p1_0_S3x128) hs1)
          broadcasts_S1x128_S64x128 (ix2 p q) = _
  rw [broadcastTo_a1_ab_apply, broadcastTo_1b_ab_apply,
    slice2_axis1_apply o v0 hs0 p (0 : Fin 1) k (by rw [hk]; rfl),
    slice2_axis0_apply o _ hs1 (0 : Fin 1) q k (by rw [hk]; rfl), transpose_ix2_apply]

end Dist

/-- The select, the root and the clamp put together from their parts. -/
theorem dist_assemble {m : BitVec 1} {c : Prop} [Decidable c] {R C X0 X1 X2 two zero r c' x0 x1 x2 : EReal}
    (hm : m = if c then 1#1 else 0#1) (hR : R = r) (hC : C = c') (h0 : X0 = x0) (h1 : X1 = x1) (h2 : X2 = x2)
    (htwo : two = 2) (hzero : zero = 0) :
    Scalar.select m zero (Ideal.sqrt (max ((R + C) - two * ((X0 + X1) + X2)) zero))
      = if c then 0 else Ideal.sqrt (max ((r + c') - 2 * ((x0 + x1) + x2)) 0) := by
  subst hR hC h0 h1 h2 htwo hzero hm
  by_cases h : c
  · rw [if_pos h, if_pos h]; exact select_one _ _
  · rw [if_neg h, if_neg h]; exact select_zero _ _

/-- THE DISTANCE BLOCK at `(p, q)` of the tile at grid point `i`: zero where the two node numbers agree, elsewhere the root
    of the clamped expanded square. -/
theorem dist_block_apply (i : grid0.Coords) (v0 : Vec Ideal S64x3 .f32) (v1 : Vec Ideal S128x3 .f32) (p : Fin 64) (q : Fin 128) :
    k0_pay2 (F := Ideal) i v0 v1 (ix2 p q)
      = if (i 0).val * 64 + p.val = (i 1).val * 128 + q.val then 0
        else Ideal.sqrt (max (((∑ k : Fin 3, v0 (ix2 p k) * v0 (ix2 p k)) + (∑ k : Fin 3, v1 (ix2 q k) * v1 (ix2 q k)))
            - 2 * ((v0 (ix2 p 0) * v1 (ix2 q 0) + v0 (ix2 p 1) * v1 (ix2 q 1)) + v0 (ix2 p 2) * v1 (ix2 q 2))) 0) := by
  have h := dist_assemble (mask_apply i p q) (rowSq_bc_apply v0 p q) (colSq_bc_apply v1 p q)
    (cross_apply v0 v1 p q 0 0 rfl slices_S64x3_o0_0_S64x1 slices_S3x128_o0_0_S1x128)
    (cross_apply v0 v1 p q 1 1 rfl slices_S64x3_o0_1_S64x1 slices_S3x128_o1_0_S1x128)
    (cross_apply v0 v1 p q 2 2 rfl slices_S64x3_o0_2_S64x1 slices_S3x128_o2_0_S1x128)
    ofBits_two_f32 Ideal.ofBits_zero_f32
  exact h

/-! ## Rank-three layout operations at an index -/

section Layout3
variable {α : Type}

/-- A coordinate of a broadcast's operand on an axis kept as it is: the result's coordinate, whichever way the size test falls. -/
theorem bc_coord {n : ℕ} (p : Fin n) : p.val = if n = 1 then 0 else p.val := by
  split
  · have := p.isLt; omega
  · rfl

/-- `[a, b]` cast to `[a, b, 1]` reads, at `(p, q, u)`, the operand at `(p, q)`. -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, c]` cast to `[a, 1, c]` reads, at `(p, u, h)`, the operand at `(p, h)`. -/
theorem shapeCast_ac_a1c_apply {a c : ℕ} (x : (⟨2, ![a, c]⟩ : Shape).Idx → α) (h : (⟨2, ![a, c]⟩ : Shape).ShapeCasts ⟨3, ![a, 1, c]⟩)
    (p : Fin a) (u : Fin 1) (k : Fin c) : shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- `[c]` cast to `[1, 1, c]` reads, at `(u, u', k)`, the operand at `k`. -/
theorem shapeCast_c_11c_apply {c : ℕ} (x : (⟨1, ![c]⟩ : Shape).Idx → α) (h : (⟨1, ![c]⟩ : Shape).ShapeCasts ⟨3, ![1, 1, c]⟩)
    (u u' : Fin 1) (k : Fin c) : shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    simp [hu, hu'])

/-- `[a, b, 1]` broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ => exact bc_coord p
  | ⟨1, _⟩ => exact bc_coord q
  | ⟨2, _⟩ => rfl

/-- `[a, 1, c]` broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ => exact bc_coord p
  | ⟨1, _⟩ => rfl
  | ⟨2, _⟩ => exact bc_coord k

/-- `[1, b, c]` broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ => exact bc_coord q
  | ⟨2, _⟩ => exact bc_coord k

/-- `[1, 1, c]` broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ => exact bc_coord k

/-- A bias row `[1, c]`, flattened, given two unit axes and spread over `[a, b, c]`, reads at `(p, q, k)` the row's entry `k`. -/
theorem bias_bc_apply {a b c : ℕ} (v : (⟨2, ![1, c]⟩ : Shape).Idx → α)
    (h1 : (⟨2, ![1, c]⟩ : Shape).ShapeCasts ⟨1, ![c]⟩) (h2 : (⟨1, ![c]⟩ : Shape).ShapeCasts ⟨3, ![1, 1, c]⟩)
    (h3 : (⟨3, ![1, 1, c]⟩ : Shape).Broadcasts ⟨3, ![a, b, c]⟩) (p : Fin a) (q : Fin b) (k : Fin c) :
    broadcastTo ⟨3, ![a, b, c]⟩ (shapeCast ⟨3, ![1, 1, c]⟩ (shapeCast ⟨1, ![c]⟩ v h1) h2) h3 (ix3 p q k) = v (ix2 (0 : Fin 1) k) := by
  rw [broadcastTo_11c_abc_apply, shapeCast_c_11c_apply, shapeCast_1a_a_apply]

/-- The block `[64, 128, 64]` flattened to `[8192, 64]` reads, at row `p · 128 + q`, the block at `(p, q, ·)`. -/
theorem shapeCast_flat_apply (x : S64x128x64.Idx → α) (h : S64x128x64.ShapeCasts S8192x64)
    (p : Fin 64) (q : Fin 128) (k : Fin 64) (r : Fin 8192) (hr : r.val = p.val * 128 + q.val) :
    shapeCast S8192x64 x h (ix2 r k) = x (ix3 p q k) :=
  shapeCast_apply x h _ _ (by
    rw [Shape.rowMajor_val_three, Shape.rowMajor_val_two]
    show (p.val * 128 + q.val) * 64 + k.val = r.val * 64 + k.val
    rw [hr])

/-- The product `[8192, 32]` folded back to `[64, 128, 32]` reads, at `(p, q, ·)`, row `p · 128 + q`. -/
theorem shapeCast_fold_apply (x : S8192x32.Idx → α) (h : S8192x32.ShapeCasts S64x128x32)
    (p : Fin 64) (q : Fin 128) (o : Fin 32) (r : Fin 8192) (hr : r.val = p.val * 128 + q.val) :
    shapeCast S64x128x32 x h (ix3 p q o) = x (ix2 r o) :=
  shapeCast_apply x h _ _ (by
    rw [Shape.rowMajor_val_three, Shape.rowMajor_val_two]
    show r.val * 32 + o.val = (p.val * 128 + q.val) * 32 + o.val
    rw [hr])

end Layout3

/-! ## The output block's pieces -/

section Out
variable (d : FVec Ideal S64x128 .f32) (v46 : Vec Ideal S64x128 .f32) (v48 : Vec Ideal S64x64 .f32) (v50 : Vec Ideal S128x64 .f32)
  (v60 : Vec Ideal S1x64 .f32) (v69 : Vec Ideal S64x32 .f32) (v74 : Vec Ideal S1x32 .f32)

/-- The first layer before its activation, as the body computes it: the edge weight spread along the features, times the sum
    of the two nodes' halves, plus the bias. -/
def pre1 : FVec Ideal S64x128x64 .f32 :=
  addf (mulf (broadcastTo S64x128x64 (shapeCast S64x128x1 (mulf (φ := .f32) v46 d) shapeCasts_S64x128_S64x128x1) broadcasts_S64x128x1_S64x128x64)
      (addf (broadcastTo S64x128x64 (shapeCast S64x1x64 (shapeCast S64x64 v48 shapeCasts_S64x64_S64x64) shapeCasts_S64x64_S64x1x64)
          broadcasts_S64x1x64_S64x128x64)
        (broadcastTo S64x128x64 (shapeCast S1x128x64 (shapeCast S128x64 v50 shapeCasts_S128x64_S128x64) shapeCasts_S128x64_S1x128x64)
          broadcasts_S1x128x64_S64x128x64)))
    (broadcastTo S64x128x64 (shapeCast S1x1x64 (shapeCast S64 v60 shapeCasts_S1x64_S64) shapeCasts_S64_S1x1x64) broadcasts_S1x1x64_S64x128x64)

/-- The hidden activations, narrowed and flattened to the product's left operand. -/
def hid : FVec Ideal S8192x64 .bf16 :=
  shapeCast S8192x64 (truncf .bf16 (mulf (pre1 d v46 v48 v50 v60) (logistic (pre1 d v46 v48 v50 v60))) bitsLt_bf16_f32)
    shapeCasts_S64x128x64_S8192x64

/-- The second layer's weights, narrowed: the product's right operand. -/
def w2 : FVec Ideal S64x32 .bf16 := truncf .bf16 (shapeCast S64x32 v69 shapeCasts_S64x32_S64x32) bitsLt_bf16_f32

/-- The second layer before its activation: the product folded back to the block, plus the bias. -/
def pre2 : FVec Ideal S64x128x32 .f32 :=
  addf (shapeCast S64x128x32
      (matmul dot_S8192x64_S64x32_S8192x32_1_0_0_1_n_n none (hid d v46 v48 v50 v60) (w2 v69) (constant (F := Ideal) S8192x32 .f32 0x00000000#32))
      shapeCasts_S8192x32_S64x128x32)
    (broadcastTo S64x128x32 (shapeCast S1x1x32 (shapeCast S32 v74 shapeCasts_S1x32_S32) shapeCasts_S32_S1x1x32) broadcasts_S1x1x32_S64x128x32)

/-- The stored block is the second pre-activation times its logistic. -/
theorem k0_pay1_eq :
    k0_pay1 (F := Ideal) d v46 v48 v50 v60 v69 v74 = mulf (pre2 d v46 v48 v50 v60 v69 v74) (logistic (pre2 d v46 v48 v50 v60 v69 v74)) := rfl

variable (p : Fin 64) (q : Fin 128)

/-- The first pre-activation at `(p, q, h)`. -/
theorem pre1_apply (h : Fin 64) :
    pre1 d v46 v48 v50 v60 (ix3 p q h)
      = (v46 (ix2 p q) * d (ix2 p q)) * (v48 (ix2 p h) + v50 (ix2 q h)) + v60 (ix2 0 h) := by
  unfold pre1
  simp only [addf_apply, mulf_apply]
  rw [broadcastTo_ab1_abc_apply, shapeCast_ab_ab1_apply, broadcastTo_a1c_abc_apply, shapeCast_ac_a1c_apply, shapeCast_self,
    broadcastTo_1bc_abc_apply, shapeCast_ab_1ab_apply, shapeCast_self, bias_bc_apply]
  rfl

/-- The product's left operand at row `p · 128 + q`: the hidden activation at `(p, q, h)`. -/
theorem hid_apply (h : Fin 64) (r : Fin 8192) (hr : r.val = p.val * 128 + q.val) :
    hid d v46 v48 v50 v60 (ix2 r h)
      = Cert.Spec.swish ((v46 (ix2 p q) * d (ix2 p q)) * (v48 (ix2 p h) + v50 (ix2 q h)) + v60 (ix2 0 h)) := by
  unfold hid
  rw [shapeCast_flat_apply _ _ p q h r hr]
  show pre1 d v46 v48 v50 v60 (ix3 p q h) * Ideal.logistic (pre1 d v46 v48 v50 v60 (ix3 p q h)) = _
  rw [pre1_apply]
  rfl

/-- The product's right operand is the weight table. -/
theorem w2_apply (h : Fin 64) (o : Fin 32) : w2 v69 (ix2 h o) = v69 (ix2 h o) := by
  unfold w2
  rw [truncf_apply, shapeCast_self]

/-- The printed dimension numbers are the plain product's. -/
theorem dot_eq_plain : dot_S8192x64_S64x32_S8192x32_1_0_0_1_n_n = DotDims.plain 8192 64 32 := rfl

/-- The second pre-activation at `(p, q, o)`. -/
theorem pre2_apply (o : Fin 32) :
    pre2 d v46 v48 v50 v60 v69 v74 (ix3 p q o)
      = (∑ h : Fin 64, Cert.Spec.swish ((v46 (ix2 p q) * d (ix2 p q)) * (v48 (ix2 p h) + v50 (ix2 q h)) + v60 (ix2 0 h)) * v69 (ix2 h o))
          + v74 (ix2 0 o) := by
  have hlt : p.val * 128 + q.val < 8192 := by have := p.isLt; have := q.isLt; omega
  unfold pre2
  rw [addf_apply, shapeCast_fold_apply _ _ p q o ⟨p.val * 128 + q.val, hlt⟩ rfl, bias_bc_apply,
    Cert.PlainDot.matmul_zero_apply _ dot_eq_plain]
  refine congrArg (· + v74 (ix2 0 o)) (Finset.sum_congr rfl fun h _ => ?_)
  rw [hid_apply d v46 v48 v50 v60 p q h ⟨p.val * 128 + q.val, hlt⟩ rfl, w2_apply]

/-- THE OUTPUT BLOCK at `(p, q, o)`: the two-layer edge function of the block's loads. -/
theorem out_block_apply (o : Fin 32) :
    k0_pay1 (F := Ideal) d v46 v48 v50 v60 v69 v74 (ix3 p q o)
      = Cert.Spec.swish ((∑ h : Fin 64, Cert.Spec.swish ((v46 (ix2 p q) * d (ix2 p q)) * (v48 (ix2 p h) + v50 (ix2 q h)) + v60 (ix2 0 h)) * v69 (ix2 h o))
          + v74 (ix2 0 o)) := by
  rw [k0_pay1_eq]
  show pre2 d v46 v48 v50 v60 v69 v74 (ix3 p q o) * Ideal.logistic (pre2 d v46 v48 v50 v60 v69 v74 (ix3 p q o)) = _
  rw [pre2_apply]
  rfl

end Out

end Cert.KernelIdeal.Pay

end
-- ==== Proof.KITile.lean ====
/-
  One output tile, as the specification sees it.

  The body's stored block at tile position `(i0, i1)` is a function of the eight blocks it loads. When those blocks
  are the tile's rows of the whole arrays — rows `i0·64 + p` of the coordinates, of the first first-layer table and
  of the edge weights, rows (and edge columns) `i1·128 + q` of the coordinates and of the second table — and the
  second layer's weights and the two biases whole (the weights transposed, the biases as one-row matrices), the
  stored value at `(p, q, o)` is the edge function of the whole arrays at `(i0·64 + p, i1·128 + q, o)`, with the
  distance taken by the expanded square and the diagonal masked by the node numbers.
-/
import proofs.«120420_j39470749450672_1_alg».proof.Proof.KerPayload

noncomputable section

namespace Cert.KernelIdeal.Tile

open Cert.KernelIdeal
open Cert.KernelIdeal.Gen (k0_pay1 k0_pay2)
open Idealize.ShloMosaic Idealize.ShloMosaic.ValueIdx

/-- A bias held as a one-row matrix, read as a vector. -/
def rowOf {n : ℕ} (R : (⟨2, ![1, n]⟩ : Shape).Idx → EReal) : (⟨1, ![n]⟩ : Shape).Idx → EReal := fun y => R (ix2 0 (y 0))

/-- A matrix held transposed, read back. -/
def transposed {a b : ℕ} (T : (⟨2, ![b, a]⟩ : Shape).Idx → EReal) : (⟨2, ![a, b]⟩ : Shape).Idx → EReal := fun y => T (ix2 (y 1) (y 0))

theorem rowOf_apply {n : ℕ} (R : (⟨2, ![1, n]⟩ : Shape).Idx → EReal) (h : Fin n) : rowOf R (ix1 h) = R (ix2 0 h) := rfl
theorem transposed_apply {a b : ℕ} (T : (⟨2, ![b, a]⟩ : Shape).Idx → EReal) (o : Fin a) (h : Fin b) :
    transposed T (ix2 o h) = T (ix2 h o) := rfl

/-- Row `i0·64 + p` of a 1024-row array. -/
abbrev rowI (i0 : Fin 16) (p : Fin 64) : Fin 1024 := ⟨i0.val * 64 + p.val, by have := i0.isLt; have := p.isLt; omega⟩
/-- Row `i1·128 + q` of a 1024-row array. -/
abbrev rowJ (i1 : Fin 8) (q : Fin 128) : Fin 1024 := ⟨i1.val * 128 + q.val, by have := i1.isLt; have := q.isLt; omega⟩

theorem tile_value (gc : grid0.Coords) (i0 : Fin 16) (i1 : Fin 8) (hg0 : (gc 0).val = i0.val) (hg1 : (gc 1).val = i1.val)
    (v0 : Vec Ideal S64x3 .f32) (v1 : Vec Ideal S128x3 .f32) (v46 : Vec Ideal S64x128 .f32) (v48 : Vec Ideal S64x64 .f32)
    (v50 : Vec Ideal S128x64 .f32) (v60 : Vec Ideal S1x64 .f32) (v69 : Vec Ideal S64x32 .f32) (v74 : Vec Ideal S1x32 .f32)
    (C : (⟨2, ![1024, 3]⟩ : Shape).Idx → EReal) (E : (⟨2, ![1024, 1024]⟩ : Shape).Idx → EReal)
    (A B : (⟨2, ![1024, 64]⟩ : Shape).Idx → EReal)
    (h0 : ∀ (p : Fin 64) (k : Fin 3), v0 (ix2 p k) = C (ix2 (rowI i0 p) k))
    (h1 : ∀ (q : Fin 128) (k : Fin 3), v1 (ix2 q k) = C (ix2 (rowJ i1 q) k))
    (h2 : ∀ (p : Fin 64) (q : Fin 128), v46 (ix2 p q) = E (ix2 (rowI i0 p) (rowJ i1 q)))
    (h3 : ∀ (p : Fin 64) (h : Fin 64), v48 (ix2 p h) = A (ix2 (rowI i0 p) h))
    (h4 : ∀ (q : Fin 128) (h : Fin 64), v50 (ix2 q h) = B (ix2 (rowJ i1 q) h))
    (p : Fin 64) (q : Fin 128) (o : Fin 32) :
    k0_pay1 (F := Ideal) (k0_pay2 gc v0 v1) v46 v48 v50 v60 v69 v74 (ix3 p q o)
      = Cert.Spec.edgeFn (Cert.Spec.distExpanded C) E A B (rowOf v60) (transposed v69) (rowOf v74) (ix3 (rowI i0 p) (rowJ i1 q) o) := by
  rw [Cert.KernelIdeal.Pay.out_block_apply, Cert.KernelIdeal.Pay.dist_block_apply, Cert.Spec.edgeFn_apply]
  simp only [h0, h1, h2, h3, h4, hg0, hg1, Cert.Spec.distExpanded, rowOf_apply, transposed_apply]

end Cert.KernelIdeal.Tile

end
-- ==== Proof.KIBlocks.lean ====
/-
  From tiles to the whole output array, at the ideal values.

  The grid has 16 × 8 points; point `t` is tile `(i0, i1)`, and the output window's block index there is
  `(i0, i1, 0)`: rows `i0·64 …`, columns `i1·128 …`, all 32 features. Each input window's block follows: the first
  coordinate window, the first table and the edge weights' rows sit at `i0`, the second coordinate window, the
  second table and the edge weights' columns at `i1`, and the second-layer weights and biases are whole. So what
  point `t` writes back is block `t` of ONE function of the arrays as the launch finds them (the edge function with
  the expanded-square distance), the 128 blocks tile the output array, and the array ends at that function.
-/
import proofs.«120420_j39470749450672_1_alg».proof.Proof.KIRun
import proofs.«120420_j39470749450672_1_alg».proof.Proof.KITile
import Idealize.ShloMosaic.Lib.Pipeline.Value

set_option maxRecDepth 16384

noncomputable section

namespace Cert.KernelIdeal.Val

open Cert.KernelIdeal Cert.KernelIdeal.Gen Cert.KernelIdeal.Run Cert.KernelIdeal.Tile
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps over the grid -/

/-- Every window's block index at a point, against the output's: decided over the 128 points. -/
theorem idx_facts : ∀ t : Fin cfg0.N,
    win0_0.index t (0 : Fin 2) = win0_8.index t (0 : Fin 3) ∧ win0_0.index t (1 : Fin 2) = 0
    ∧ win0_1.index t (0 : Fin 2) = win0_8.index t (1 : Fin 3) ∧ win0_1.index t (1 : Fin 2) = 0
    ∧ win0_2.index t (0 : Fin 2) = win0_8.index t (0 : Fin 3) ∧ win0_2.index t (1 : Fin 2) = win0_8.index t (1 : Fin 3)
    ∧ win0_3.index t (0 : Fin 2) = win0_8.index t (0 : Fin 3) ∧ win0_3.index t (1 : Fin 2) = 0
    ∧ win0_4.index t (0 : Fin 2) = win0_8.index t (1 : Fin 3) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (2 : Fin 3) = 0 :=
  (by decide +kernel : ∀ t : Fin grid0.N, _)

/-- The output's block index is the tile's position, inside the 16 × 8 grid. -/
theorem tile_facts : ∀ t : Fin cfg0.N,
    win0_8.index t (0 : Fin 3) < 16 ∧ win0_8.index t (1 : Fin 3) < 8
    ∧ (grid0.coords t 0).val = win0_8.index t (0 : Fin 3) ∧ (grid0.coords t 1).val = win0_8.index t (1 : Fin 3) :=
  (by decide +kernel : ∀ t : Fin grid0.N, _)

/-- Every tile is some point's. -/
theorem idx_onto : ∀ (q0 : Fin 16) (q1 : Fin 8), ∃ t : Fin cfg0.N, win0_8.index t = ![q0.val, q1.val, 0] :=
  (by decide +kernel : ∀ (q0 : Fin 16) (q1 : Fin 8), ∃ t : Fin grid0.N, win0_8.index t = ![q0.val, q1.val, 0])

/-- The tile's row block and column block at point `t`. -/
def tileI (t : Fin cfg0.N) : Fin 16 := ⟨win0_8.index t (0 : Fin 3), (tile_facts t).1⟩
def tileJ (t : Fin cfg0.N) : Fin 8 := ⟨win0_8.index t (1 : Fin 3), (tile_facts t).2.1⟩

/-! ## The input blocks, read off the arrays -/

abbrev blk0 (c : Dev nD) (t : Fin cfg0.N) : Vec Ideal S64x3 .f32 := iblk m c 0 t
abbrev blk1 (c : Dev nD) (t : Fin cfg0.N) : Vec Ideal S128x3 .f32 := iblk m c 1 t
abbrev blk2 (c : Dev nD) (t : Fin cfg0.N) : Vec Ideal S64x128 .f32 := iblk m c 2 t
abbrev blk3 (c : Dev nD) (t : Fin cfg0.N) : Vec Ideal S64x64 .f32 := iblk m c 3 t
abbrev blk4 (c : Dev nD) (t : Fin cfg0.N) : Vec Ideal S128x64 .f32 := iblk m c 4 t
abbrev blk5 (c : Dev nD) (t : Fin cfg0.N) : Vec Ideal S64x32 .f32 := iblk m c 5 t
abbrev blk6 (c : Dev nD) (t : Fin cfg0.N) : Vec Ideal S1x64 .f32 := iblk m c 6 t
abbrev blk7 (c : Dev nD) (t : Fin cfg0.N) : Vec Ideal S1x32 .f32 := iblk m c 7 t

theorem read0 (c : Dev nD) (t : Fin cfg0.N) (p : Fin 64) (k : Fin 3) :
    blk0 m c t (ix2 p k) = V m c main_arg1 (ix2 (rowI (tileI t) p) k) := by
  obtain ⟨e00, e01, -⟩ := idx_facts t
  show V m c main_arg1 (((cfg0.win 0).blk t).view.emb (ix2 p k)) = V m c main_arg1 (ix2 (rowI (tileI t) p) k)
  refine congrArg (V m c main_arg1) (funext fun a => Fin.ext ?_)
  match a with
  | ⟨0, _⟩ => show win0_0.index t (0 : Fin 2) * 64 + 1 * p.val = win0_8.index t (0 : Fin 3) * 64 + p.val; omega
  | ⟨1, _⟩ => show win0_0.index t (1 : Fin 2) * 3 + 1 * k.val = k.val; omega

theorem read1 (c : Dev nD) (t : Fin cfg0.N) (q : Fin 128) (k : Fin 3) :
    blk1 m c t (ix2 q k) = V m c main_arg1 (ix2 (rowJ (tileJ t) q) k) := by
  obtain ⟨-, -, e10, e11, -⟩ := idx_facts t
  show V m c main_arg1 (((cfg0.win 1).blk t).view.emb (ix2 q k)) = V m c main_arg1 (ix2 (rowJ (tileJ t) q) k)
  refine congrArg (V m c main_arg1) (funext fun a => Fin.ext ?_)
  match a with
  | ⟨0, _⟩ => show win0_1.index t (0 : Fin 2) * 128 + 1 * q.val = win0_8.index t (1 : Fin 3) * 128 + q.val; omega
  | ⟨1, _⟩ => show win0_1.index t (1 : Fin 2) * 3 + 1 * k.val = k.val; omega

theorem read2 (c : Dev nD) (t : Fin cfg0.N) (p : Fin 64) (q : Fin 128) :
    blk2 m c t (ix2 p q) = V m c main_arg0 (ix2 (rowI (tileI t) p) (rowJ (tileJ t) q)) := by
  obtain ⟨-, -, -, -, e20, e21, -⟩ := idx_facts t
  show V m c main_arg0 (((cfg0.win 2).blk t).view.emb (ix2 p q)) = V m c main_arg0 (ix2 (rowI (tileI t) p) (rowJ (tileJ t) q))
  refine congrArg (V m c main_arg0) (funext fun a => Fin.ext ?_)
  match a with
  | ⟨0, _⟩ => show win0_2.index t (0 : Fin 2) * 64 + 1 * p.val = win0_8.index t (0 : Fin 3) * 64 + p.val; omega
  | ⟨1, _⟩ => show win0_2.index t (1 : Fin 2) * 128 + 1 * q.val = win0_8.index t (1 : Fin 3) * 128 + q.val; omega

theorem read3 (c : Dev nD) (t : Fin cfg0.N) (p : Fin 64) (h : Fin 64) :
    blk3 m c t (ix2 p h) = V m c main_v2 (ix2 (rowI (tileI t) p) h) := by
  obtain ⟨-, -, -, -, -, -, e30, e31, -⟩ := idx_facts t
  show V m c main_v2 (((cfg0.win 3).blk t).view.emb (ix2 p h)) = V m c main_v2 (ix2 (rowI (tileI t) p) h)
  refine congrArg (V m c main_v2) (funext fun a => Fin.ext ?_)
  match a with
  | ⟨0, _⟩ => show win0_3.index t (0 : Fin 2) * 64 + 1 * p.val = win0_8.index t (0 : Fin 3) * 64 + p.val; omega
  | ⟨1, _⟩ => show win0_3.index t (1 : Fin 2) * 64 + 1 * h.val = h.val; omega

theorem read4 (c : Dev nD) (t : Fin cfg0.N) (q : Fin 128) (h : Fin 64) :
    blk4 m c t (ix2 q h) = V m c main_v5 (ix2 (rowJ (tileJ t) q) h) := by
  obtain ⟨-, -, -, -, -, -, -, -, e40, e41, -⟩ := idx_facts t
  show V m c main_v5 (((cfg0.win 4).blk t).view.emb (ix2 q h)) = V m c main_v5 (ix2 (rowJ (tileJ t) q) h)
  refine congrArg (V m c main_v5) (funext fun a => Fin.ext ?_)
  match a with
  | ⟨0, _⟩ => show win0_4.index t (0 : Fin 2) * 128 + 1 * q.val = win0_8.index t (1 : Fin 3) * 128 + q.val; omega
  | ⟨1, _⟩ => show win0_4.index t (1 : Fin 2) * 64 + 1 * h.val = h.val; omega

theorem read5 (c : Dev nD) (t : Fin cfg0.N) : blk5 m c t = V m c main_v6 := by
  obtain ⟨-, -, -, -, -, -, -, -, -, -, e50, e51, -⟩ := idx_facts t
  funext y
  show V m c main_v6 (((cfg0.win 5).blk t).view.emb y) = V m c main_v6 y
  refine congrArg (V m c main_v6) (funext fun a => Fin.ext ?_)
  match a with
  | ⟨0, _⟩ => show win0_5.index t (0 : Fin 2) * 64 + 1 * (y 0).val = (y 0).val; omega
  | ⟨1, _⟩ => show win0_5.index t (1 : Fin 2) * 32 + 1 * (y 1).val = (y 1).val; omega

theorem read6 (c : Dev nD) (t : Fin cfg0.N) : blk6 m c t = V m c main_v7 := by
  obtain ⟨-, -, -, -, -, -, -, -, -, -, -, -, e60, e61, -⟩ := idx_facts t
  funext y
  show V m c main_v7 (((cfg0.win 6).blk t).view.emb y) = V m c main_v7 y
  refine congrArg (V m c main_v7) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem read7 (c : Dev nD) (t : Fin cfg0.N) : blk7 m c t = V m c main_v8 := by
  obtain ⟨-, -, -, -, -, -, -, -, -, -, -, -, -, -, e70, e71, -⟩ := idx_facts t
  funext y
  show V m c main_v8 (((cfg0.win 7).blk t).view.emb y) = V m c main_v8 y
  refine congrArg (V m c main_v8) (funext fun a => Fin.ext ?_)
  match a with
  | ⟨0, _⟩ => show win0_7.index t (0 : Fin 2) * 1 + 1 * (y 0).val = (y 0).val; omega
  | ⟨1, _⟩ => show win0_7.index t (1 : Fin 2) * 32 + 1 * (y 1).val = (y 1).val; omega

/-! ## The whole-array function -/

/-- What the output array ends holding, over the arrays as the launch finds them: the edge function with the
    expanded-square distance of the coordinates, the two first-layer tables, and the second layer's weights and the
    biases read back from their transposed and one-row forms. -/
def outArr (c : Dev nD) : S1024x1024x32.Idx → EReal :=
  Cert.Spec.edgeFn (Cert.Spec.distExpanded (V m c main_arg1)) (V m c main_arg0) (V m c main_v2) (V m c main_v5)
    (rowOf (V m c main_v7)) (transposed (V m c main_v6)) (rowOf (V m c main_v8))

/-- The output block's index in the array. -/
theorem emb8 (t : Fin cfg0.N) (p : Fin 64) (q : Fin 128) (o : Fin 32) :
    ((cfg0.win 8).blk t).view.emb (ix3 p q o) = ix3 (rowI (tileI t) p) (rowJ (tileJ t) q) o := by
  have e82 := (idx_facts t).2.2.2.2.2.2.2.2.2.2.2.2.2.2.2.2
  funext a; apply Fin.ext
  match a with
  | ⟨0, _⟩ => show win0_8.index t (0 : Fin 3) * 64 + 1 * p.val = win0_8.index t (0 : Fin 3) * 64 + p.val; omega
  | ⟨1, _⟩ => show win0_8.index t (1 : Fin 3) * 128 + 1 * q.val = win0_8.index t (1 : Fin 3) * 128 + q.val; omega
  | ⟨2, _⟩ => show win0_8.index t (2 : Fin 3) * 32 + 1 * o.val = o.val; omega

/-- What point `t` writes back is block `t` of `outArr`. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after_8]
  unfold outBlk
  rw [View.canon_unit_zero hz3]
  simp only [View.ld_unit_zero (S := S64x3) hz2, View.ld_unit_zero (S := S128x3) hz2, View.ld_unit_zero (S := S64x128) hz2,
    View.ld_unit_zero (S := S64x64) hz2, View.ld_unit_zero (S := S128x64) hz2, View.ld_unit_zero (S := S64x32) hz2,
    View.ld_unit_zero (S := S1x64) hz2, View.ld_unit_zero (S := S1x32) hz2]
  funext y
  obtain ⟨p, q, o, rfl⟩ : ∃ (p : Fin 64) (q : Fin 128) (o : Fin 32), y = ix3 p q o := ⟨y 0, y 1, y 2, eq_ix3 y⟩
  show k0_pay1 (F := Ideal) (k0_pay2 (grid0.coords t) (blk0 m c t) (blk1 m c t)) (blk2 m c t) (blk3 m c t) (blk4 m c t)
      (blk6 m c t) (blk5 m c t) (blk7 m c t) (ix3 p q o) = outArr m c (((cfg0.win 8).blk t).view.emb (ix3 p q o))
  rw [emb8]
  refine (tile_value (grid0.coords t) (tileI t) (tileJ t) (tile_facts t).2.2.1 (tile_facts t).2.2.2
    (blk0 m c t) (blk1 m c t) (blk2 m c t) (blk3 m c t) (blk4 m c t) (blk6 m c t) (blk5 m c t) (blk7 m c t)
    (V m c main_arg1) (V m c main_arg0) (V m c main_v2) (V m c main_v5)
    (read0 m c t) (read1 m c t) (read2 m c t) (read3 m c t) (read4 m c t) p q o).trans ?_
  rw [read5, read6, read7]
  rfl

/-! ## The cover -/

theorem mem_blk8 (t : Fin cfg0.N) (i : S1024x1024x32.Idx) :
    i ∈ ((cfg0.win 8).blk t).view.set ↔ ∀ a : Fin 3, win0_8.index t a * S64x128x32.size a ≤ (i a).val ∧ (i a).val < win0_8.index t a * S64x128x32.size a + S64x128x32.size a := by
  show i ∈ ((View.whole main_v9).slice (win0_8.rect t)).set ↔ _
  rw [View.set_slice_whole, Rect.mem_set_unit]
  exact Iff.rfl

/-- Every index of the output array lies in some point's block. -/
theorem cover (i : S1024x1024x32.Idx) : ∃ t : Fin cfg0.N, (cfg0.win 8).flush t = true ∧ i ∈ ((cfg0.win 8).blk t).view.set := by
  have hi0 : (i 0).val < 1024 := (i 0).isLt
  have hi1 : (i 1).val < 1024 := (i 1).isLt
  have hi2 : (i 2).val < 32 := (i 2).isLt
  obtain ⟨t, ht⟩ := idx_onto ⟨(i 0).val / 64, by omega⟩ ⟨(i 1).val / 128, by omega⟩
  have q0 : win0_8.index t (0 : Fin 3) = (i 0).val / 64 := congrFun ht 0
  have q1 : win0_8.index t (1 : Fin 3) = (i 1).val / 128 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 64 ≤ (i 0).val ∧ (i 0).val < win0_8.index t (0 : Fin 3) * 64 + 64; omega
  | ⟨1, _⟩ => show win0_8.index t (1 : Fin 3) * 128 ≤ (i 1).val ∧ (i 1).val < win0_8.index t (1 : Fin 3) * 128 + 128; omega
  | ⟨2, _⟩ => show win0_8.index t (2 : Fin 3) * 32 ≤ (i 2).val ∧ (i 2).val < win0_8.index t (2 : Fin 3) * 32 + 32; omega

/-- The output array after the run. -/
theorem final (c : Dev nD) : (dats m 0 c).arrAt 8 cfg0.N = outArr m c :=
  (dats m 0 c).arrAt_eq_of_cover 8 (outArr m c) (fun t _ => flushed_eq m c t) (cover)

end Cert.KernelIdeal.Val

end
-- ==== Proof.KIHost.lean ====
/-
  The arrays the host writes before the launch, read back, and the output array over the ARGUMENT arrays.

  Before the launch the program slices the first layer's weights in two halves, transposes each and multiplies
  the embeddings by it (the two first-layer tables), transposes the second layer's weights, and reshapes each bias
  to a one-row matrix. The kernel reads the transposed weights and the one-row biases; read back through the
  transposition and the reshape they are the argument arrays themselves. The coordinates and the edge weights are
  not written before the launch. So the output array is the edge function of the argument arrays and of the two
  tables, with the expanded-square distance.
-/
import proofs.«120420_j39470749450672_1_alg».proof.Proof.KIBlocks
import Idealize.ShloMosaic.Lib.StableHlo.Run

set_option maxRecDepth 16384

noncomputable section

namespace Cert.KernelIdeal.Val

open Cert.KernelIdeal Cert.KernelIdeal.Gen Cert.KernelIdeal.Run Cert.KernelIdeal.Tile
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## What the host operations wrote -/

/-- The first half of the first layer applied to the embeddings: `Embeddings · W1[:, :32]ᵀ`. -/
def tableA (x2 : FVec Ideal S1024x32 .f32) (x3 : FVec Ideal S64x64 .f32) : FVec Ideal S1024x64 .f32 :=
  Host.dotGeneral (F := Ideal) dot_S1024x32_S32x64_S1024x64_1_0_0_1_n_n none x2
    (transpose S32x64 [1, 0] (extractStridedSlice S64x32 ![0, 0] x3 slices_S64x64_S64x32_0_0) transposes_S64x32_S32x64_1_0)

/-- The second half: `Embeddings · W1[:, 32:]ᵀ`. -/
def tableB (x2 : FVec Ideal S1024x32 .f32) (x3 : FVec Ideal S64x64 .f32) : FVec Ideal S1024x64 .f32 :=
  Host.dotGeneral (F := Ideal) dot_S1024x32_S32x64_S1024x64_1_0_0_1_n_n none x2
    (transpose S32x64 [1, 0] (extractStridedSlice S64x32 ![0, 32] x3 slices_S64x64_S64x32_0_32) transposes_S64x32_S32x64_1_0)

theorem V_v2 (c : Dev nD) : (V m c main_v2 : S1024x64.Idx → EReal)
    = tableA (m ((c : Thread nD τ).loc main_arg2)) (m ((c : Thread nD τ).loc main_arg3)) := by
  dsimp only [V, hostOps0]; after_results <;> rfl

theorem V_v5 (c : Dev nD) : (V m c main_v5 : S1024x64.Idx → EReal)
    = tableB (m ((c : Thread nD τ).loc main_arg2)) (m ((c : Thread nD τ).loc main_arg3)) := by
  dsimp only [V, hostOps0]; after_results <;> rfl

theorem V_v6 (c : Dev nD) : (V m c main_v6 : S64x32.Idx → EReal)
    = transpose S64x32 [1, 0] (m ((c : Thread nD τ).loc main_arg5)) transposes_S32x64_S64x32_1_0 := by
  dsimp only [V, hostOps0]; after_results <;> rfl

theorem V_v7 (c : Dev nD) : (V m c main_v7 : S1x64.Idx → EReal)
    = shapeCast S1x64 (m ((c : Thread nD τ).loc main_arg4)) shapeCasts_S64_S1x64 := by
  dsimp only [V, hostOps0]; after_results <;> rfl

theorem V_v8 (c : Dev nD) : (V m c main_v8 : S1x32.Idx → EReal)
    = shapeCast S1x32 (m ((c : Thread nD τ).loc main_arg6)) shapeCasts_S32_S1x32 := by
  dsimp only [V, hostOps0]; after_results <;> rfl

/-- The transposed second-layer weights, read back, are the weights. -/
theorem w2_back (c : Dev nD) : transposed (V m c main_v6 : S64x32.Idx → EReal) = m ((c : Thread nD τ).loc main_arg5) := by
  funext y
  obtain ⟨o, h, rfl⟩ : ∃ (o : Fin 32) (h : Fin 64), y = ix2 o h := ⟨y 0, y 1, eq_ix2 y⟩
  rw [transposed_apply, V_v6]
  exact transpose_apply [1, 0] _ transposes_S32x64_S64x32_1_0 (ix2 h o) (ix2 o h) (fun b => match b with
    | ⟨0, _⟩ => rfl
    | ⟨1, _⟩ => rfl)

/-- The first bias as a one-row matrix, read back, is the bias. -/
theorem b1_back (c : Dev nD) : rowOf (V m c main_v7 : S1x64.Idx → EReal) = m ((c : Thread nD τ).loc main_arg4) := by
  funext y
  obtain ⟨h, rfl⟩ : ∃ h : Fin 64, y = ix1 h := ⟨y 0, eq_ix1 y⟩
  rw [rowOf_apply, V_v7]
  exact shapeCast_apply _ shapeCasts_S64_S1x64 (ix2 0 h) (ix1 h) (by
    rw [Shape.rowMajor_val_one, Shape.rowMajor_val_two]; simp)

/-- The second bias likewise. -/
theorem b2_back (c : Dev nD) : rowOf (V m c main_v8 : S1x32.Idx → EReal) = m ((c : Thread nD τ).loc main_arg6) := by
  funext y
  obtain ⟨o, rfl⟩ : ∃ o : Fin 32, y = ix1 o := ⟨y 0, eq_ix1 y⟩
  rw [rowOf_apply, V_v8]
  exact shapeCast_apply _ shapeCasts_S32_S1x32 (ix2 0 o) (ix1 o) (by
    rw [Shape.rowMajor_val_one, Shape.rowMajor_val_two]; simp)

/-! ## The output array over the argument arrays -/

theorem outArr_eq (c : Dev nD) : outArr m c
    = Cert.Spec.edgeFn (Cert.Spec.distExpanded (m ((c : Thread nD τ).loc main_arg1))) (m ((c : Thread nD τ).loc main_arg0))
        (tableA (m ((c : Thread nD τ).loc main_arg2)) (m ((c : Thread nD τ).loc main_arg3)))
        (tableB (m ((c : Thread nD τ).loc main_arg2)) (m ((c : Thread nD τ).loc main_arg3)))
        (m ((c : Thread nD τ).loc main_arg4)) (m ((c : Thread nD τ).loc main_arg5)) (m ((c : Thread nD τ).loc main_arg6)) := by
  unfold outArr
  rw [w2_back, b1_back, b2_back, V_main_arg1, V_main_arg0, V_v2, V_v5]

/-! ## The run, read -/

/-- Every weakly fair execution ends with the result array at the edge function of the argument arrays and the
    argument arrays unchanged. -/
theorem run_value : θ_run defs (onTc (τ := τ) (main (F := Ideal))) ⟨m, fun _ => 0, ρ⟩ fun r => ∀ c : Dev nD,
      r.2.mem ((c.tc : Thread nD τ).loc main_v9) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 8).trans (final m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).2 main_arg6 (Pipeline.mem_restRefs_of _ rfl (by decide))).trans (V_main_arg6 m c)⟩) (run_main m ρ)

end Cert.KernelIdeal.Val

end
-- ==== Proof.RefBridge.lean ====
/-
  The reference program's result, read at one index, is the two-layer edge function of the specification over the
  guarded distance, with the reference's own two first-layer tables as A and B.

  The reference computes, for nodes i, j:
    s(i,j)   = 0 + Σ_k (c_i,k − c_j,k)²                    (a sum over the three coordinates, initial value 0)
    d(i,j)   = select (s > 0) (√(select (s > 0) s 1)) 0      (the guarded root)
    w(i,j)   = Edges(i,j) · d(i,j)
    pre1     = w · (A(i,h) + B(j,h)) + b1(h)
    h1       = pre1 · (1 / (1 + exp (−pre1)))
    pre2     = Σ_h h1(i,j,h) · W2(o,h) + b2(o)
    out      = pre2 · (1 / (1 + exp (−pre2)))
  Each broadcast only re-reads an operand at the coordinates it keeps, so at the index (i, j, o) every stage is the
  corresponding stage of the specification; 1 / (1 + exp (−x)) is the logistic function by definition.
-/
import proofs.«120420_j39470749450672_1_alg».proof.Proof.Gen.ReferenceIdeal.Read
import proofs.«120420_j39470749450672_1_alg».proof.Proof.Spec

noncomputable section

namespace Cert.RefBridge

open Cert.ReferenceIdeal Cert.ReferenceIdeal.Gen Cert.ReferenceIdeal.Read Idealize.ShloMosaic Idealize.ShloMosaic.ValueIdx
open Idealize.ShloMosaic.StableHlo

/-- The single-precision word of 1.0 denotes the real 1. -/
theorem one_f32 : Ideal.ofBits .f32 0x3F800000#32 = 1 := by
  simp [Ideal.ofBits, Ideal.ieee]
  rw [← EReal.coe_mul]
  norm_num

/-- A select on a decided comparison is the if on the proposition. -/
theorem select_decide {α : Type} (p : Prop) [Decidable p] (a b : α) :
    Scalar.select (BitVec.ofBool (decide p)) a b = if p then a else b := by
  by_cases h : p <;> simp [Scalar.select, h]

/-- The product of a value with the reciprocal of one plus the exponential of its negation is its swish. -/
theorem swish_eq (x : EReal) : x * Ideal.div 1 (1 + Ideal.exp (-x)) = Cert.Spec.swish x := rfl

/-- The reference's sum of squared coordinate differences at (i, j): the initial 0 adds nothing. -/
theorem sq_apply (x1 : (⟨S1024x3, .f32⟩ : BufTy).Contents (Elt Ideal)) (i j : Fin 1024) :
    val_main_v6 (F := Ideal) x1 (ix2 i j) = Cert.Spec.sqDiff x1 i j := by
  rw [val_main_v6_apply, val_main_cst_apply, Ideal.ofBits_def, Ideal.ofBits_zero_f32, zero_add]
  unfold Cert.Spec.sqDiff
  refine Finset.sum_congr rfl fun k _ => ?_
  rw [val_main_v5_apply, val_main_v4_apply, val_main_v2_apply, val_main_v0_apply, val_main_v3_apply, val_main_v1_apply,
    Ideal.mulf_def, Ideal.subf_def]
  have e0 : idx_main_v0 (idx_main_v2 (idx_main_v6 (ix2 i j) k)) = ix2 i k :=
    funext fun a => Fin.ext (by match a with | ⟨0, _⟩ => rfl | ⟨1, _⟩ => rfl)
  have e1 : idx_main_v1 (idx_main_v3 (idx_main_v6 (ix2 i j) k)) = ix2 j k :=
    funext fun a => Fin.ext (by match a with | ⟨0, _⟩ => rfl | ⟨1, _⟩ => rfl)
  rw [e0, e1]

/-- The reference's guarded distance at (i, j) is the specification's. -/
theorem dist_apply (x1 : (⟨S1024x3, .f32⟩ : BufTy).Contents (Elt Ideal)) (i j : Fin 1024) :
    val_main_v13 (F := Ideal) x1 (ix2 i j) = Cert.Spec.distGuarded x1 i j := by
  rw [val_main_v13_apply, val_main_v8_apply, val_main_v12_apply, val_main_v11_apply, val_main_v10_apply,
    val_main_v7_apply, val_main_v9_apply, val_main_call1_v1_apply, val_main_call0_v1_apply,
    val_main_call1_v0_apply, val_main_call0_v0_apply, val_main_cst_0_apply, val_main_cst_1_apply,
    val_main_cst_2_apply, val_main_cst_3_apply, sq_apply]
  simp only [Ideal.cmpf_def, Ideal.cmp, Ideal.hostUnary_sqrt_def, Ideal.ofBits_def, Ideal.ofBits_zero_f32, one_f32,
    select_decide]
  rfl

/-- The first layer before its activation at (i, j, h): the edge weight times the distance, times the sum of the two
    first-layer tables at (i, h) and (j, h), plus the bias. -/
theorem pre1_apply (x0 : (⟨S1024x1024, .f32⟩ : BufTy).Contents (Elt Ideal)) (x1 : (⟨S1024x3, .f32⟩ : BufTy).Contents (Elt Ideal)) (x2 : (⟨S1024x32, .f32⟩ : BufTy).Contents (Elt Ideal)) (x3 : (⟨S64x64, .f32⟩ : BufTy).Contents (Elt Ideal)) (x4 : (⟨S64, .f32⟩ : BufTy).Contents (Elt Ideal))
    (i j : Fin 1024) (h : Fin 64) :
    val_main_v31 (F := Ideal) x0 x1 x2 x3 x4 (ix3 i j h)
      = (x0 (ix2 i j) * Cert.Spec.distGuarded x1 i j)
          * (val_main_v17 (F := Ideal) x2 x3 (ix2 i h) + val_main_v20 (F := Ideal) x2 x3 (ix2 j h)) + x4 (ix1 h) := by
  rw [val_main_v31_apply, val_main_v28_apply, val_main_v27_apply, val_main_v21_apply, val_main_v14_apply,
    val_main_v26_apply, val_main_v24_apply, val_main_v22_apply, val_main_v25_apply, val_main_v23_apply,
    val_main_v30_apply, val_main_v29_apply]
  have e0 : idx_main_v21 (idx_main_v27 (ix3 i j h)) = ix2 i j :=
    funext fun a => Fin.ext (by match a with | ⟨0, _⟩ => rfl | ⟨1, _⟩ => rfl)
  have e1 : idx_main_v22 (idx_main_v24 (ix3 i j h)) = ix2 i h :=
    funext fun a => Fin.ext (by match a with | ⟨0, _⟩ => rfl | ⟨1, _⟩ => rfl)
  have e2 : idx_main_v23 (idx_main_v25 (ix3 i j h)) = ix2 j h :=
    funext fun a => Fin.ext (by match a with | ⟨0, _⟩ => rfl | ⟨1, _⟩ => rfl)
  have e3 : idx_main_v29 (idx_main_v30 (ix3 i j h)) = ix1 h :=
    funext fun a => Fin.ext (by match a with | ⟨0, _⟩ => rfl)
  rw [e0, e1, e2, e3, dist_apply]
  simp only [Ideal.addf_def, Ideal.mulf_def]

/-- The first layer after its activation at (i, j, h) is the swish of the value before it. -/
theorem h1_apply (x0 : (⟨S1024x1024, .f32⟩ : BufTy).Contents (Elt Ideal)) (x1 : (⟨S1024x3, .f32⟩ : BufTy).Contents (Elt Ideal)) (x2 : (⟨S1024x32, .f32⟩ : BufTy).Contents (Elt Ideal)) (x3 : (⟨S64x64, .f32⟩ : BufTy).Contents (Elt Ideal)) (x4 : (⟨S64, .f32⟩ : BufTy).Contents (Elt Ideal))
    (i : S1024x1024x64.Idx) :
    val_main_v38 (F := Ideal) x0 x1 x2 x3 x4 i = Cert.Spec.swish (val_main_v31 (F := Ideal) x0 x1 x2 x3 x4 i) := by
  rw [val_main_v38_apply, val_main_v37_apply, val_main_v36_apply, val_main_v35_apply, val_main_v34_apply,
    val_main_v33_apply, val_main_v32_apply, val_main_cst_4_apply, val_main_cst_5_apply]
  simp only [Ideal.mulf_def, Ideal.hostDivf_def, Ideal.addf_def, Ideal.hostUnary_exp_def, Ideal.hostNegf_def,
    Ideal.negf_def, Ideal.ofBits_def, one_f32]
  exact swish_eq _

/-- The second layer before its activation at (i, j, o): the sum over the hidden features plus the bias. -/
theorem pre2_apply (x0 : (⟨S1024x1024, .f32⟩ : BufTy).Contents (Elt Ideal)) (x1 : (⟨S1024x3, .f32⟩ : BufTy).Contents (Elt Ideal)) (x2 : (⟨S1024x32, .f32⟩ : BufTy).Contents (Elt Ideal)) (x3 : (⟨S64x64, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal))
    (i j : Fin 1024) (o : Fin 32) :
    val_main_v42 (F := Ideal) x0 x1 x2 x3 x4 x5 x6 (ix3 i j o)
      = (∑ h : Fin 64, Cert.Spec.swish ((x0 (ix2 i j) * Cert.Spec.distGuarded x1 i j)
          * (val_main_v17 (F := Ideal) x2 x3 (ix2 i h) + val_main_v20 (F := Ideal) x2 x3 (ix2 j h)) + x4 (ix1 h))
            * x5 (ix2 o h)) + x6 (ix1 o) := by
  rw [val_main_v42_apply, val_main_v39_apply, val_main_v41_apply, val_main_v40_apply, Ideal.addf_def]
  have e : idx_main_v40 (idx_main_v41 (ix3 i j o)) = ix1 o :=
    funext fun a => Fin.ext (by match a with | ⟨0, _⟩ => rfl)
  rw [e]
  refine congrArg (· + x6 (ix1 o)) (Finset.sum_congr rfl fun h _ => ?_)
  have el : lidx_main_v39 (ix3 i j o) h = ix3 i j h :=
    funext fun a => Fin.ext (by match a with | ⟨0, _⟩ => rfl | ⟨1, _⟩ => rfl | ⟨2, _⟩ => rfl)
  have er : ridx_main_v39 (ix3 i j o) h = ix2 o h :=
    funext fun a => Fin.ext (by match a with | ⟨0, _⟩ => rfl | ⟨1, _⟩ => rfl)
  rw [el, er, h1_apply, pre1_apply]

/-- The reference's result is the edge function over the guarded distance and the reference's own two first-layer
    tables. -/
theorem ref_value (x0 : (⟨S1024x1024, .f32⟩ : BufTy).Contents (Elt Ideal)) (x1 : (⟨S1024x3, .f32⟩ : BufTy).Contents (Elt Ideal)) (x2 : (⟨S1024x32, .f32⟩ : BufTy).Contents (Elt Ideal)) (x3 : (⟨S64x64, .f32⟩ : BufTy).Contents (Elt Ideal)) (x4 : (⟨S64, .f32⟩ : BufTy).Contents (Elt Ideal)) (x5 : (⟨S32x64, .f32⟩ : BufTy).Contents (Elt Ideal)) (x6 : (⟨S32, .f32⟩ : BufTy).Contents (Elt Ideal)) :
    val_main_v49 (F := Ideal) x0 x1 x2 x3 x4 x5 x6
      = Cert.Spec.edgeFn (Cert.Spec.distGuarded x1) x0 (val_main_v17 (F := Ideal) x2 x3)
          (val_main_v20 (F := Ideal) x2 x3) x4 x5 x6 := by
  funext y
  obtain ⟨i, j, o, rfl⟩ : ∃ i j o, y = ix3 i j o := ⟨_, _, _, eq_ix3 y⟩
  rw [Cert.Spec.edgeFn_apply, val_main_v49_apply, val_main_v48_apply, val_main_v47_apply, val_main_v46_apply,
    val_main_v45_apply, val_main_v44_apply, val_main_v43_apply, val_main_cst_6_apply, val_main_cst_7_apply,
    pre2_apply]
  simp only [Ideal.mulf_def, Ideal.hostDivf_def, Ideal.addf_def, Ideal.hostUnary_exp_def, Ideal.hostNegf_def,
    Ideal.negf_def, Ideal.ofBits_def, one_f32]
  exact swish_eq _

end Cert.RefBridge

end
-- ==== Proof.DistLaw.lean ====
/-
  The two spellings of the pairwise distance agree on real coordinates.

  Write `a_k`, `b_k` (`k < 3`) for the real coordinates of nodes `i` and `j`. Then
    (Σ a_k² + Σ b_k²) − 2 (a_0 b_0 + a_1 b_1 + a_2 b_2) = Σ (a_k − b_k)² =: s ≥ 0,
  so the maximum with `0` is `s` itself and the expanded spelling is `√s` off the diagonal, `0` on it.
  The guarded spelling is `√s` where `s > 0` and `0` elsewhere. On the diagonal `a = b`, so `s = 0` and both
  are `0`; off the diagonal either `s > 0` and both are `√s`, or `s = 0` and `√0 = 0`.
-/
import proofs.«120420_j39470749450672_1_alg».proof.Proof.Spec
import Mathlib.Algebra.BigOperators.Fin
import Mathlib.Tactic.Ring
import Mathlib.Tactic.Positivity
import Mathlib.Tactic.Linarith

noncomputable section

namespace Cert.Spec

open Idealize.ShloMosaic Idealize.ShloMosaic.ValueIdx

/-- The real sum of the squared differences of two real triples. -/
def sqDiffR (a0 a1 a2 b0 b1 b2 : ℝ) : ℝ :=
  (a0 - b0) * (a0 - b0) + (a1 - b1) * (a1 - b1) + (a2 - b2) * (a2 - b2)

theorem sqDiffR_nonneg (a0 a1 a2 b0 b1 b2 : ℝ) : 0 ≤ sqDiffR a0 a1 a2 b0 b1 b2 := by
  unfold sqDiffR
  have h0 := mul_self_nonneg (a0 - b0)
  have h1 := mul_self_nonneg (a1 - b1)
  have h2 := mul_self_nonneg (a2 - b2)
  linarith

theorem sqDiffR_self (a0 a1 a2 : ℝ) : sqDiffR a0 a1 a2 a0 a1 a2 = 0 := by
  unfold sqDiffR; ring

/-- On real coordinates the sum of squared differences is the real one, coerced. -/
theorem sqDiff_coe (C : (⟨2, ![1024, 3]⟩ : Shape).Idx → EReal) (c : (⟨2, ![1024, 3]⟩ : Shape).Idx → ℝ)
    (hc : ∀ y, C y = (c y : EReal)) (i j : Fin 1024) :
    sqDiff C i j
      = ((sqDiffR (c (ix2 i 0)) (c (ix2 i 1)) (c (ix2 i 2)) (c (ix2 j 0)) (c (ix2 j 1)) (c (ix2 j 2)) : ℝ) : EReal) := by
  unfold sqDiff sqDiffR
  rw [Fin.sum_univ_three]
  simp only [hc, ← EReal.coe_sub, ← EReal.coe_mul, ← EReal.coe_add]

/-- On real coordinates the expanded square is the same real sum of squared differences, coerced. -/
theorem expanded_coe (C : (⟨2, ![1024, 3]⟩ : Shape).Idx → EReal) (c : (⟨2, ![1024, 3]⟩ : Shape).Idx → ℝ)
    (hc : ∀ y, C y = (c y : EReal)) (i j : Fin 1024) :
    ((∑ k : Fin 3, C (ix2 i k) * C (ix2 i k)) + (∑ k : Fin 3, C (ix2 j k) * C (ix2 j k)))
        - 2 * ((C (ix2 i 0) * C (ix2 j 0) + C (ix2 i 1) * C (ix2 j 1)) + C (ix2 i 2) * C (ix2 j 2))
      = ((sqDiffR (c (ix2 i 0)) (c (ix2 i 1)) (c (ix2 i 2)) (c (ix2 j 0)) (c (ix2 j 1)) (c (ix2 j 2)) : ℝ) : EReal) := by
  have h2 : (2 : EReal) = ((2 : ℝ) : EReal) := rfl
  rw [Fin.sum_univ_three, Fin.sum_univ_three, h2]
  simp only [hc, ← EReal.coe_sub, ← EReal.coe_mul, ← EReal.coe_add]
  congr 1
  unfold sqDiffR
  ring

/-- For real coordinates the distance by the expanded square with the diagonal masked and the distance by the
    summed squared differences with the root guarded are the same extended real. -/
theorem dist_agree (C : (⟨2, ![1024, 3]⟩ : Shape).Idx → EReal) (hfin : ∀ y, ∃ r : ℝ, C y = (r : EReal))
    (i j : Fin 1024) :
    distExpanded C i j = distGuarded C i j := by
  choose c hc using hfin
  unfold distExpanded distGuarded
  rw [expanded_coe C c hc i j, sqDiff_coe C c hc i j]
  set s : ℝ := sqDiffR (c (ix2 i 0)) (c (ix2 i 1)) (c (ix2 i 2)) (c (ix2 j 0)) (c (ix2 j 1)) (c (ix2 j 2)) with hs
  have hs0 : 0 ≤ s := sqDiffR_nonneg _ _ _ _ _ _
  have hmax : max (s : EReal) 0 = (s : EReal) := max_eq_left (EReal.coe_nonneg.mpr hs0)
  have hroot : Ideal.sqrt (s : EReal) = ((Real.sqrt s : ℝ) : EReal) := by
    rw [Ideal.sqrt_coe, if_neg (not_lt.mpr hs0)]
  rw [hmax, hroot]
  by_cases hij : i.val = j.val
  · -- on the diagonal the two triples are the same, the sum is 0, and 0 is not positive
    have hij' : i = j := Fin.ext hij
    have hz : s = 0 := by rw [hs, hij']; exact sqDiffR_self _ _ _
    rw [if_pos hij, hz, EReal.coe_zero, if_neg (lt_irrefl _)]
  · rw [if_neg hij]
    by_cases hpos : 0 < s
    · have hpos' : (0 : EReal) < (s : EReal) := EReal.coe_pos.mpr hpos
      rw [if_pos hpos', if_pos hpos', hroot]
    · -- the sum is not positive and not negative: it is 0, whose root is 0
      have hz : s = 0 := le_antisymm (not_lt.mp hpos) hs0
      have hpos' : ¬ (0 : EReal) < (s : EReal) := fun h => hpos (EReal.coe_pos.mp h)
      rw [if_neg hpos', hz, Real.sqrt_zero, EReal.coe_zero]

end Cert.Spec

end
-- ==== Proof.FiniteCoords.lean ====
/-
  From the precondition to "every coordinate is a real".

  The printed predicate is the conjunction, over the seven argument arrays, of "every entry's absolute value is strictly
  below `+∞`" — each an `and`-reduction over all axes of the entrywise comparison `|x| < +∞`, the whole an `and` of the
  seven. Its being 1 gives each conjunct 1, the reduction of the coordinates' comparison being 1 gives the comparison 1 at
  every entry, and on the extended reals `max x (-x) < ⊤` leaves only the reals: at `⊤` and at `⊥` the maximum is `⊤`.
-/
import proofs.«120420_j39470749450672_1_alg».proof.Pre_finite_inputs
import Idealize.ShloMosaic.Lib.ReduceAll
import Idealize.ShloMosaic.Lib.ValueIdx
import Idealize.ShloMosaic.PureOps.Ideal

namespace Cert.FiniteCoords

open Idealize.ShloMosaic Cert.Pre_finite_inputs

/-- The shape with no axes has one index. -/
instance : Subsingleton S_.Idx := ⟨fun a b => funext fun d => d.elim0⟩

/-- An extended real whose absolute value `max x (-x)` lies strictly below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word of `|x| < +∞`, the infinity given by its f32 pattern, being 1 says `x` is a real. -/
theorem real_of_cmp (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  apply real_of_abs_lt_top
  by_contra hlt
  have : Ideal.cmp .olt (max x (-x)) ⊤ = 0#1 := by
    show BitVec.ofBool (decide (max x (-x) < ⊤)) = 0#1
    rw [decide_eq_false hlt]; rfl
  rw [this] at h
  exact absurd h (by decide)

/-- Under the precondition every coordinate is a real. -/
theorem coords_real [Cert.Pre_finite_inputs.Facts]
    (x0 : FVec Ideal S1024x1024 .f32) (x1 : FVec Ideal S1024x3 .f32) (x2 : FVec Ideal S1024x32 .f32)
    (x3 : FVec Ideal S64x64 .f32) (x4 : FVec Ideal S64 .f32) (x5 : FVec Ideal S32x64 .f32) (x6 : FVec Ideal S32 .f32)
    (h : Cert.Pre_finite_inputs.fn (F := Ideal) x0 x1 x2 x3 x4 x5 x6 = fun _ => 1#1) :
    ∀ y, ∃ r : ℝ, x1 y = (r : EReal) := by
  intro y
  have h0 := congrFun h ValueIdx.ix0
  dsimp only [fn, fn_part1] at h0
  -- the seven conjuncts are nested to the left; the coordinates' is the second of the innermost pair
  have h28 := (IntOp.andi_eq_one.1 h0).1
  have h23 := (IntOp.andi_eq_one.1 h28).1
  have h18 := (IntOp.andi_eq_one.1 h23).1
  have h13 := (IntOp.andi_eq_one.1 h18).1
  have h8 := (IntOp.andi_eq_one.1 h13).1
  have h7 := (IntOp.andi_eq_one.1 h8).2
  -- the reduction over all axes being 1 gives the comparison 1 at the entry `y`
  have e := Host.reduce_andi_all _ _ _ _ ValueIdx.ix0 h7 y
  exact real_of_cmp (x1 y) e

end Cert.FiniteCoords
-- ==== Proof.lean ====
/-
  Pairwise edge features of a graph: a Pallas kernel tiled over the (node, node) grid against its jnp reference,
  equal over the extended reals under finite inputs.

  Both programs compute, for nodes i, j and output feature o,
    out(i,j,o) = swish(Σ_h swish(Edges(i,j) · d(i,j) · (A(i,h) + B(j,h)) + b1(h)) · W2(o,h) + b2(o)),
  with A, B the two halves of the first linear layer applied to the embeddings (the same host operations in both
  programs), swish(x) = x · σ(x) and σ the logistic function (one operation in the kernel, 1 / (1 + exp(−x)) spelt
  out in the reference: one function on the extended reals by definition). The kernel multiplies by the second
  layer's transposed weights on the matrix unit, the reference contracts with the weights themselves: the same sum
  over h. They differ in the distance d: the kernel expands the square, √(max(|c_i|² + |c_j|² − 2 c_i·c_j, 0)), and
  zeroes the diagonal by comparing node numbers; the reference sums the squared differences s and takes √s where
  s > 0, 0 elsewhere. On real coordinates — which is what the precondition gives — the expansion IS s ≥ 0, s
  vanishes on the diagonal, and √0 = 0, so the two distances are one function.

  The kernel's launch reads the coordinates' array through two windows (rows of tile i, rows of tile j). Its run
  is proved over the pipeline rule with that array's share cut in two halves, one per window; the body's one
  whole-block store makes each written-back tile a block of one whole-array function, and the 128 tiles cover the
  result. The reference's run and its reading operation by operation are the generated modules'.
-/
import proofs.«120420_j39470749450672_1_alg».proof.Defs
import proofs.«120420_j39470749450672_1_alg».proof.Proof.Gen.Kernel
import proofs.«120420_j39470749450672_1_alg».proof.Proof.Gen.Kernel.Skeleton
import proofs.«120420_j39470749450672_1_alg».proof.Proof.Gen.Kernel.Launch
import proofs.«120420_j39470749450672_1_alg».proof.Proof.Gen.Kernel.Points
import proofs.«120420_j39470749450672_1_alg».proof.Proof.Gen.KernelIdeal
import proofs.«120420_j39470749450672_1_alg».proof.Proof.Gen.KernelIdeal.Skeleton
import proofs.«120420_j39470749450672_1_alg».proof.Proof.Gen.KernelIdeal.Launch
import proofs.«120420_j39470749450672_1_alg».proof.Proof.Gen.KernelIdeal.Points
import proofs.«120420_j39470749450672_1_alg».proof.Proof.Gen.ReferenceIdeal
import proofs.«120420_j39470749450672_1_alg».proof.Proof.Gen.Pre_finite_inputs
import proofs.«120420_j39470749450672_1_alg».proof.Proof.Gen.ReferenceIdeal.Run
import proofs.«120420_j39470749450672_1_alg».proof.Proof.Gen.ReferenceIdeal.Read
import proofs.«120420_j39470749450672_1_alg».proof.Proof.KRun
import proofs.«120420_j39470749450672_1_alg».proof.Proof.KIHost
import proofs.«120420_j39470749450672_1_alg».proof.Proof.RefBridge
import proofs.«120420_j39470749450672_1_alg».proof.Proof.DistLaw
import proofs.«120420_j39470749450672_1_alg».proof.Proof.FiniteCoords
import Idealize.ShloMosaic.Adequacy
import Idealize.ShloMosaic.Init

noncomputable section

namespace Cert.Proof

open Idealize.ShloMosaic Idealize.SL.Sem

/-! ## The two first-layer tables are the same host operations in both programs -/

theorem tableA_eq (x2 : FVec Ideal Cert.KernelIdeal.S1024x32 .f32) (x3 : FVec Ideal Cert.KernelIdeal.S64x64 .f32) :
    Cert.KernelIdeal.Val.tableA x2 x3 = Cert.ReferenceIdeal.Read.val_main_v17 (F := Ideal) x2 x3 := by
  unfold Cert.KernelIdeal.Val.tableA Cert.ReferenceIdeal.Read.val_main_v17 Cert.ReferenceIdeal.Read.val_main_v16
    Cert.ReferenceIdeal.Read.val_main_v15
  rfl

theorem tableB_eq (x2 : FVec Ideal Cert.KernelIdeal.S1024x32 .f32) (x3 : FVec Ideal Cert.KernelIdeal.S64x64 .f32) :
    Cert.KernelIdeal.Val.tableB x2 x3 = Cert.ReferenceIdeal.Read.val_main_v20 (F := Ideal) x2 x3 := by
  unfold Cert.KernelIdeal.Val.tableB Cert.ReferenceIdeal.Read.val_main_v20 Cert.ReferenceIdeal.Read.val_main_v19
    Cert.ReferenceIdeal.Read.val_main_v18
  rfl

/-! ## The claims -/

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the edge function with the expanded-square distance, the reference's at the
    edge function with the guarded distance, of arguments that agree and whose coordinates are real: one function. -/
theorem algebraic : Cert.algebraic_KernelIdeal_ReferenceIdeal := by
  intro m ρ m' ρ' hpre hagree
  refine ⟨fun c => Cert.KernelIdeal.Val.outArr m c, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  show _ = Cert.KernelIdeal.Val.outArr m c
  rw [Cert.ReferenceIdeal.Read.val_main_v49_eq, Cert.RefBridge.ref_value, a0, a1, a2, a3, a4, a5, a6,
    Cert.KernelIdeal.Val.outArr_eq, tableA_eq, tableB_eq]
  exact Cert.Spec.edgeFn_congr (fun i j => (Cert.Spec.dist_agree _
    (Cert.FiniteCoords.coords_real _ _ _ _ _ _ _ (hpre c)) i j).symm) _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
